-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x5 : Shape := ⟨2, ![8388608, 5]⟩
abbrev S8388608 : Shape := ⟨1, ![8388608]⟩
abbrev S_ : Shape := ⟨0, ![]⟩

class Facts : Prop where
  bcast_S_S8388608x5 : S_.BroadcastsInDim S8388608x5 (![] : Fin 0 → Fin S8388608x5.rank)
  reducesTo_S8388608x5_S_d0_1 : S8388608x5.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8388608x5 .f32) (main_arg1 : IVec S8388608 32) (main_arg2 : IVec S8388608 32) (main_arg3 : FVec F S8388608 .f32) : IVec S_ 1 :=
  let main_v0 : FVec F S8388608x5 .f32 := Host.absf main_arg0
  let main_cst : FVec F S_ .f32 := constant S_ .f32 0x7F800000#32
  let main_v1 : FVec F S8388608x5 .f32 := broadcastInDim S8388608x5 ![] bcast_S_S8388608x5 main_cst
  let main_v2 : IVec S8388608x5 1 := cmpf .olt main_v0 main_v1
  let main_c : IVec S_ 1 := constantI S_ 1 1#1
  let main_v3 : IVec S_ 1 := (fun x v => Host.reduce IntOp.andi x v reducesTo_S8388608x5_S_d0_1 h_S_) main_v2 main_c
  let main_v4 : FVec F S8388608 .f32 := Host.absf main_arg3
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_c_2 : IVec S_ 32 := constantI S_ 32 0#32
  let main_v9 : IVec S8388608 32 := broadcastInDim S8388608 ![] bcast_S_S8388608 main_c_2
  let main_v10 : IVec S8388608 1 := cmpi .sge main_arg1 main_v9
  let main_c_3 : IVec S_ 1 := constantI S_ 1 1#1
  let main_v11 : IVec S_ 1 := (fun x v => Host.reduce IntOp.andi x v reducesTo_S8388608_S_d0 h_S_) main_v10 main_c_3
  let main_v12 : IVec S_ 1 := andi main_v8 main_v11
  let main_c_4 : IVec S_ 32 := constantI S_ 32 5#32
  let main_v13 : IVec S8388608 32 := broadcastInDim S8388608 ![] bcast_S_S8388608 main_c_4
  let main_v14 : IVec S8388608 1 := cmpi .slt main_arg1 main_v13
  let main_c_5 : IVec S_ 1 := constantI S_ 1 1#1
  let main_v15 : IVec S_ 1 := (fun x v => Host.reduce IntOp.andi x v reducesTo_S8388608_S_d0 h_S_) main_v14 main_c_5
  fn_part1 (F := F) main_v12 main_v15
-- ==== Kernel.lean ====
abbrev S8388608x5 : Shape := ⟨2, ![8388608, 5]⟩
abbrev S8388608 : Shape := ⟨1, ![8388608]⟩
abbrev S5x8388608 : Shape := ⟨2, ![5, 8388608]⟩
abbrev S1x8388608 : Shape := ⟨2, ![1, 8388608]⟩
abbrev S2x32x16 : Shape := ⟨3, ![2, 32, 16]⟩
abbrev S5x32768 : Shape := ⟨2, ![5, 32768]⟩
abbrev S1x32768 : Shape := ⟨2, ![1, 32768]⟩
abbrev S1x32x16 : Shape := ⟨3, ![1, 32, 16]⟩
abbrev S32x16 : Shape := ⟨2, ![32, 16]⟩
abbrev S32768 : Shape := ⟨1, ![32768]⟩
abbrev S5x1 : Shape := ⟨2, ![5, 1]⟩
abbrev S16x1 : Shape := ⟨2, ![16, 1]⟩
abbrev S16x32768 : Shape := ⟨2, ![16, 32768]⟩
abbrev S32x32768 : Shape := ⟨2, ![32, 32768]⟩
abbrev S_ : Shape := ⟨0, ![]⟩
abbrev S2x16x16 : Shape := ⟨3, ![2, 16, 16]⟩
abbrev S1x16x16 : Shape := ⟨3, ![1, 16, 16]⟩
abbrev S16x16 : Shape := ⟨2, ![16, 16]⟩
abbrev S256 : Shape := ⟨1, ![256]⟩

abbrev nBuf : Space → Nat
  | .hbm => 20
  | .vmem => 11
  | .smem => 0
  | _ => 0

abbrev bufTy : (tb : Table) → Fin (tcTables nBuf tb) → BufTy
  | .hbm, ⟨0, _⟩ => ⟨S8388608x5, .f32⟩
  | .hbm, ⟨1, _⟩ => ⟨S8388608, .i32⟩
  | .hbm, ⟨2, _⟩ => ⟨S8388608, .i32⟩
  | .hbm, ⟨3, _⟩ => ⟨S8388608, .f32⟩
  | .hbm, ⟨4, _⟩ => ⟨S5x8388608, .f32⟩
  | .hbm, ⟨5, _⟩ => ⟨S5x8388608, .bf16⟩
  | .hbm, ⟨6, _⟩ => ⟨S1x8388608, .i32⟩
  | .hbm, ⟨7, _⟩ => ⟨S1x8388608, .i32⟩
  | .hbm, ⟨8, _⟩ => ⟨S1x8388608, .f32⟩
  | .hbm, ⟨9, _⟩ => ⟨S2x32x16, .f32⟩
  | .hbm, ⟨10, _⟩ => ⟨S_, .f32⟩
  | .hbm, ⟨11, _⟩ => ⟨S32x16, .f32⟩
  | .hbm, ⟨12, _⟩ => ⟨S2x16x16, .f32⟩
  | .hbm, ⟨13, _⟩ => ⟨S1x16x16, .f32⟩
  | .hbm, ⟨14, _⟩ => ⟨S16x16, .f32⟩
  | .hbm, ⟨15, _⟩ => ⟨S256, .f32⟩
  | .hbm, ⟨16, _⟩ => ⟨S1x16x16, .f32⟩
  | .hbm, ⟨17, _⟩ => ⟨S16x16, .f32⟩
  | .hbm, ⟨18, _⟩ => ⟨S256, .f32⟩
  | .hbm, ⟨19, _⟩ => ⟨S256, .f32⟩
  | .local _ .vmem, ⟨0, _⟩ => ⟨S5x32768, .bf16⟩
  | .local _ .vmem, ⟨1, _⟩ => ⟨S5x32768, .bf16⟩
  | .local _ .vmem, ⟨2, _⟩ => ⟨S1x32768, .i32⟩
  | .local _ .vmem, ⟨3, _⟩ => ⟨S1x32768, .i32⟩
  | .local _ .vmem, ⟨4, _⟩ => ⟨S1x32768, .i32⟩
  | .local _ .vmem, ⟨5, _⟩ => ⟨S1x32768, .i32⟩
  | .local _ .vmem, ⟨6, _⟩ => ⟨S1x32768, .f32⟩
  | .local _ .vmem, ⟨7, _⟩ => ⟨S1x32768, .f32⟩
  | .local _ .vmem, ⟨8, _⟩ => ⟨S1x32x16, .f32⟩
  | .local _ .vmem, ⟨9, _⟩ => ⟨S1x32x16, .f32⟩
  | .local _ .vmem, ⟨10, _⟩ => ⟨S32x16, .f32⟩
  | _, _ => ⟨S8388608x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v67 : BitVec 1 := Scalar.cmpi .eq arg1 c127_i32
  let v68 : BitVec 32 := Scalar.extui v67
  let c0_i32_17 : BitVec 32 := 0#32
  let v69 : BitVec 1 := Scalar.cmpi .ne v68 c0_i32_17
  v69

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S8388608x5_S5x8388608_1_0 : S8388608x5.Transposes [1, 0] S5x8388608
  bitsLt_bf16_f32 : FTy.bits .bf16 < FTy.bits .f32
  shapeCasts_S8388608_S1x8388608 : S8388608.ShapeCasts S1x8388608
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S5x32768_S5x32768_0_0 : ∀ a, (![0, 0] : Fin 2 → Nat) a + S5x32768.size a ≤ S5x32768.size a
  h_S5x32768 : 0 < S5x32768.numel
  shapeCasts_S5x32768_S5x32768 : S5x32768.ShapeCasts S5x32768
  reduces_S5x32768_S32768 : S5x32768.Reduces [0] S32768
  shapeCasts_S32768_S1x32768 : S32768.ShapeCasts S1x32768
  broadcasts_S1x32768_S5x32768 : S1x32768.Broadcasts S5x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  iota_S5x1_d0_w32 : S5x1.Iotas .tc 32 [0]
  broadcasts_S5x1_S5x32768 : S5x1.Broadcasts S5x32768
  natLt_1_32 : 1 < 32
  iota_S16x1_d0_w32 : S16x1.Iotas .tc 32 [0]
  broadcasts_S16x1_S16x32768 : S16x1.Broadcasts S16x32768
  broadcasts_S1x32768_S16x32768 : S1x32768.Broadcasts S16x32768
  concatenates_S16x32768_S16x32768_S32x32768_d0 : Shape.Concatenates [S16x32768, S16x32768] S32x32768 0
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  reducesTo_S2x32x16_S32x16_d0 : S2x32x16.ReducesTo [0] S32x16
  h_S_ : 0 < S_.numel
  shapeCasts_S32x16_S2x16x16 : S32x16.ShapeCasts S2x16x16
  slices_S2x16x16_S1x16x16_0_0_0 : S2x16x16.Slices ![0, 0, 0] S1x16x16
  shapeCasts_S1x16x16_S16x16 : S1x16x16.ShapeCasts S16x16
  shapeCasts_S16x16_S256 : S16x16.ShapeCasts S256
  slices_S2x16x16_S1x16x16_1_0_0 : S2x16x16.Slices ![1, 0, 0] S1x16x16
  dot_S32x32768_S16x32768_S32x16_1_1_0_0_n_n_wf : DotDims.WF S32x32768 S16x32768 S32x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x32768.size a ≤ S5x8388608.size a
  hwx0_0 : ∀ i : grid0.Coords, EltTy.bits .bf16 = 32 ∨ (Rect.block (s := S5x8388608) S5x32768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x8388608.size a
  hwx0_1 : ∀ i : grid0.Coords, EltTy.bits .i32 = 32 ∨ (Rect.block (s := S1x8388608) S1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x8388608.size a
  hwx0_2 : ∀ i : grid0.Coords, EltTy.bits .i32 = 32 ∨ (Rect.block (s := S1x8388608) S1x32768.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x8388608.size a
  hwx0_3 : ∀ i : grid0.Coords, EltTy.bits .f32 = 32 ∨ (Rect.block (s := S1x8388608) S1x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x16.size a ≤ S2x32x16.size a
  hwx0_4 : ∀ i : grid0.Coords, EltTy.bits .f32 = 32 ∨ (Rect.block (s := S2x32x16) S1x32x16.size (cc0_transform_4 i) (hinb0_4 i)).WholeWords (EltTy.packing .f32)

variable [Facts₀]

def dot_S32x32768_S16x32768_S32x16_1_1_0_0_n_n : DotDims S32x32768 S16x32768 S32x16 where
  lhsContracting := [1]
  rhsContracting := [1]
  lhsNonContracting := [0]
  rhsNonContracting := [0]
  lhsBatch := []
  rhsBatch := []
  wf := dot_S32x32768_S16x32768_S32x16_1_1_0_0_n_n_wf

abbrev win0_0 : Pipeline.Window sig grid0 :=
  Pipeline.Window.ofSpec (Memref.whole main_v1) S5x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8388608x5 : Shape := ⟨2, ![8388608, 5]⟩
abbrev S8388608 : Shape := ⟨1, ![8388608]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩
abbrev S256 : Shape := ⟨1, ![256]⟩

abbrev nBuf : Space → Nat
  | .hbm => 54
  | .vmem => 0
  | .smem => 0
  | _ => 0

abbrev bufTy : (tb : Table) → Fin (tcTables nBuf tb) → BufTy
  | .hbm, ⟨0, _⟩ => ⟨S8388608x5, .f32⟩
  | .hbm, ⟨1, _⟩ => ⟨S8388608, .i32⟩
  | .hbm, ⟨2, _⟩ => ⟨S8388608, .i32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608x1, .f32⟩
  | .hbm, ⟨10, _⟩ => ⟨S8388608x5, .f32⟩
  | .hbm, ⟨11, _⟩ => ⟨S8388608x5, .f32⟩
  | .hbm, ⟨12, _⟩ => ⟨S8388608x5, .f32⟩
  | .hbm, ⟨13, _⟩ => ⟨S_, .f32⟩
  | .hbm, ⟨14, _⟩ => ⟨S8388608, .f32⟩
  | .hbm, ⟨15, _⟩ => ⟨S8388608x1, .f32⟩
  | .hbm, ⟨16, _⟩ => ⟨S8388608x1, .f32⟩
  | .hbm, ⟨17, _⟩ => ⟨S8388608x5, .f32⟩
  | .hbm, ⟨18, _⟩ => ⟨S8388608x5, .f32⟩
  | .hbm, ⟨19, _⟩ => ⟨S8388608x1, .i32⟩
  | .hbm, ⟨20, _⟩ => ⟨S_, .i32⟩
  | .hbm, ⟨21, _⟩ => ⟨S8388608x1, .i32⟩
  | .hbm, ⟨22, _⟩ => ⟨S8388608x1, .i1⟩
  | .hbm, ⟨23, _⟩ => ⟨S_, .i32⟩
  | .hbm, ⟨24, _⟩ => ⟨S8388608x1, .i32⟩
  | .hbm, ⟨25, _⟩ => ⟨S8388608x1, .i32⟩
  | .hbm, ⟨26, _⟩ => ⟨S8388608x1, .i32⟩
  | .hbm, ⟨27, _⟩ => ⟨S8388608x1x1, .i32⟩
  | .hbm, ⟨28, _⟩ => ⟨S1, .i32⟩
  | .hbm, ⟨29, _⟩ => ⟨S_, .i32⟩
  | .hbm, ⟨30, _⟩ => ⟨S8388608x1x1, .i32⟩
  | .hbm, ⟨31, _⟩ => ⟨S8388608x1x1, .i1⟩
  | .hbm, ⟨32, _⟩ => ⟨S1x1x1, .i32⟩
  | .hbm, ⟨33, _⟩ => ⟨S8388608x1x1, .i32⟩
  | .hbm, ⟨34, _⟩ => ⟨S8388608x1x1, .i1⟩
  | .hbm, ⟨35, _⟩ => ⟨S8388608x1x1, .i1⟩
  | .hbm, ⟨36, _⟩ => ⟨S_, .i1⟩
  | .hbm, ⟨37, _⟩ => ⟨S8388608x1, .i1⟩
  | .hbm, ⟨38, _⟩ => ⟨S8388608x1, .f32⟩
  | .hbm, ⟨39, _⟩ => ⟨S_, .f32⟩
  | .hbm, ⟨40, _⟩ => ⟨S8388608x1, .f32⟩
  | .hbm, ⟨41, _⟩ => ⟨S8388608x1, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S256, .f32⟩
  | .hbm, ⟨47, _⟩ => ⟨S8388608x1, .i32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S8388608x1, .i32⟩
  | .hbm, ⟨52, _⟩ => ⟨S256, .f32⟩
  | .hbm, ⟨53, _⟩ => ⟨S256, .f32⟩
  | _, _ => ⟨S8388608x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩

abbrev nD : Nat := 1
abbrev τ : Topo := Topo.v7x

variable {F : FTy → Type} [FloatOps F]

class Facts₀ : Prop where
  reducesTo_S8388608x5_S8388608_d1 : S8388608x5.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x5_0_1 : S8388608x1.BroadcastsInDim S8388608x5 (![0, 1] : Fin 2 → Fin S8388608x5.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  bcast_S_S256 : S_.BroadcastsInDim S256 (![] : Fin 0 → Fin S256.rank)
  gather_S8388608x5_S8388608x1x1_S8388608x1_n_1_0_0_1_2_11_wf : GatherDims.WF S8388608x5 S8388608x1x1 S8388608x1 [] [1] [0] [1] [0] 2 ![1, 1]
  scatter_S256_S8388608x1_S8388608_n_0_0_1_wf : ScatterDims.WF S256 S8388608x1 S8388608 [] [0] [0] 1

variable [Facts₀]

def gather_S8388608x5_S8388608x1x1_S8388608x1_n_1_0_0_1_2_11 : GatherDims S8388608x5 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x5_S8388608x1x1_S8388608x1_n_1_0_0_1_2_11_wf
def scatter_S256_S8388608x1_S8388608_n_0_0_1 : ScatterDims S256 S8388608x1 S8388608 where
  updateWindowDims := []
  insertedWindowDims := [0]
  scatterDimsToOperandDims := [0]
  indexVectorDim := 1
  wf := scatter_S256_S8388608x1_S8388608_n_0_0_1_wf

class Facts : Prop extends Facts₀ where

variable [Facts]
-- ==== Proof.Spec.lean ====
/-
  The mathematics both programs compute, stated once over plain index types.

  Inputs: logits `yp n c` (n a sample, c one of five classes), a class label word `yt n`, a group id word
  `cl n` and a weight `sw n`. For one sample the loss is the negative log-softmax of its row at its label,
  times its weight; the result at group `g` (one of 256) is the quotient of two segment sums, the losses and the
  weights of the samples whose id, read as a signed integer, is `g`. A sample whose id is outside `[0, 256)`
  contributes to no group on either side.

  The log-softmax is written exactly as both programs compute it: the row's maximum is the fold of `max` from the
  pattern of −∞ (kept as a pattern: both sides carry the same word, so it is never evaluated), the shifted row is
  exponentiated and summed, and the logarithm of the sum is subtracted from the shifted row.
-/
import Idealize.ShloMosaic.PureOps.Ideal
import Idealize.ShloMosaic.PureOps.Ideal.Laws
import Idealize.ShloMosaic.Lib.ValueIdx

noncomputable section

namespace Cert.SegLoss

open Idealize.ShloMosaic Idealize.ShloMosaic.ValueIdx

/-- The number of samples. -/
abbrev NS : Nat := 8388608

/-- The f32 pattern of −∞, as an extended real (never evaluated: the same word on both sides). -/
abbrev negInf : EReal := Ideal.ofBits .f32 0xFF800000#32

/-- A row's maximum: `max` folded over the five logits from −∞, then once more against −∞. -/
def rowMax (x : Fin 5 → EReal) : EReal := max negInf ((Finset.univ : Finset (Fin 5)).fold max negInf x)

/-- The log-softmax of a row at class `c`: the shifted logit less the logarithm of the sum of the shifted row's exponentials. -/
def logSoftmax (x : Fin 5 → EReal) (c : Fin 5) : EReal :=
  (x c - rowMax x) - Ideal.log (∑ k : Fin 5, Ideal.exp (x k - rowMax x))

/-- One sample's weighted loss: minus the log-softmax at its label, times its weight. -/
def wnll (x : Fin 5 → EReal) (y : Fin 5) (w : EReal) : EReal := -(logSoftmax x y) * w

/-- The class a label word names (a label in `[0, 5)` names itself). -/
def cls (y : BitVec 32) : Fin 5 := ⟨y.toNat % 5, Nat.mod_lt _ (by decide)⟩

/-- The weighted loss of sample `n`. -/
def sampleLoss (yp : Fin NS → Fin 5 → EReal) (yt : Fin NS → BitVec 32) (sw : Fin NS → EReal) (n : Fin NS) : EReal :=
  wnll (yp n) (cls (yt n)) (sw n)

/-- The segment sum at group `g`: `f` summed over the samples whose id word, read signed, is `g`. -/
def segSum (f : Fin NS → EReal) (cl : Fin NS → BitVec 32) (g : ℕ) : EReal :=
  ∑ n ∈ Finset.univ.filter (fun n : Fin NS => (cl n).toInt = (g : ℤ)), f n

/-- A comparison bit, widened to a word and converted, as an extended real: `1` or `0`. -/
def ind (b : BitVec 1) : EReal := (((b.setWidth 32).toInt : ℝ) : EReal)

/-- Sample `k` of block `t`: blocks of 32768 consecutive samples. -/
def sampleOf (t : Fin 256) (k : Fin 32768) : Fin NS := ⟨32768 * t.val + k.val, by have := t.isLt; have := k.isLt; show 32768 * t.val + k.val < 8388608; omega⟩

/-- The result at every group, from the four argument arrays as the programs hold them. -/
def result (x0 : (⟨2, ![8388608, 5]⟩ : Shape).Idx → EReal) (x1 x2 : (⟨1, ![8388608]⟩ : Shape).Idx → BitVec 32)
    (x3 : (⟨1, ![8388608]⟩ : Shape).Idx → EReal) : (⟨1, ![256]⟩ : Shape).Idx → EReal := fun i =>
  Ideal.div (segSum (sampleLoss (fun n c => x0 (ix2 n c)) (fun n => x1 (ix1 n)) (fun n => x3 (ix1 n))) (fun n => x2 (ix1 n)) (i 0).val)
    (segSum (fun n => x3 (ix1 n)) (fun n => x2 (ix1 n)) (i 0).val)

end Cert.SegLoss

end
-- ==== Proof.KBlocks.lean ====
/-
  The four input blocks of a grid step, read off the argument arrays.

  Before the region the program transposes the logits to 5 × N (and narrows them, which over the extended reals
  changes nothing) and views the labels, the group ids and the weights 1 × N. Grid step `t` stages columns
  `32768·t … 32768·t + 32767` of each: lane `k` of a block is sample `32768·t + k`.
-/
import proofs.«414519_j4698694221868_3_alg».proof.Proof.Gen.KernelIdeal.Frame
import proofs.«414519_j4698694221868_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.SegLoss

variable (m : (ℓ : Loc nD τ sig) → Buf (Elt Ideal) ℓ)

/-- The region finds the transposed logits in its first array. -/
theorem V_v1 (c : Dev nD) : (V m c main_v1 : S5x8388608.Idx → EReal)
    = truncf (F := Ideal) .bf16 (transpose S5x8388608 [1, 0] (m ((c : Thread nD τ).loc main_arg0)) transposes_S8388608x5_S5x8388608_1_0) bitsLt_bf16_f32 := by
  show StableHlo.after hostOps0 (fun b => m (c, b)) (Proc.devRef .tc main_v1) = _
  after_results

/-- The labels viewed 1 × N. -/
theorem V_v2 (c : Dev nD) : (V m c main_v2 : S1x8388608.Idx → BitVec 32)
    = shapeCast S1x8388608 (m ((c : Thread nD τ).loc main_arg1)) shapeCasts_S8388608_S1x8388608 := by
  show StableHlo.after hostOps0 (fun b => m (c, b)) (Proc.devRef .tc main_v2) = _
  after_results
  try rfl

/-- The group ids viewed 1 × N. -/
theorem V_v3 (c : Dev nD) : (V m c main_v3 : S1x8388608.Idx → BitVec 32)
    = shapeCast S1x8388608 (m ((c : Thread nD τ).loc main_arg2)) shapeCasts_S8388608_S1x8388608 := by
  show StableHlo.after hostOps0 (fun b => m (c, b)) (Proc.devRef .tc main_v3) = _
  after_results
  try rfl

/-- The weights viewed 1 × N. -/
theorem V_v4 (c : Dev nD) : (V m c main_v4 : S1x8388608.Idx → EReal)
    = shapeCast S1x8388608 (m ((c : Thread nD τ).loc main_arg3)) shapeCasts_S8388608_S1x8388608 := by
  show StableHlo.after hostOps0 (fun b => m (c, b)) (Proc.devRef .tc main_v4) = _
  after_results
  try rfl

/-- Where each window's block sits at grid step `t`: the inputs' at column block `t`, the output's at split `t / 128`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = t.val / 128 ∧ win0_4.index t (1 : Fin 3) = 0 ∧ win0_4.index t (2 : Fin 3) = 0 :=
  (by decide +kernel : ∀ t : Fin grid0.N, _)

/-- A grid step as one of the 256 blocks of samples. -/
def pt (t : Fin cfg0.N) : Fin 256 := ⟨t.val, lt_of_lt_of_eq t.isLt N_0⟩

/-- The logits block: row `cc`, lane `k` is logit `cc` of sample `32768·t + k`. -/
theorem blk0_apply (c : Dev nD) (t : Fin cfg0.N) (cc : Fin 5) (k : Fin 32768) :
    (iblk m c 0 t : Vec Ideal S5x32768 .bf16) (ix2 cc k) = m ((c : Thread nD τ).loc main_arg0) (ix2 (sampleOf (pt t) k) cc) := by
  unfold iblk
  rw [View.read_apply]
  show V m c main_v1 _ = _
  rw [V_v1]
  show transpose S5x8388608 [1, 0] (m ((c : Thread nD τ).loc main_arg0)) transposes_S8388608x5_S5x8388608_1_0 _ = _
  refine transpose_apply _ _ _ _ (ix2 (sampleOf (pt t) k) cc) (fun b => ?_)
  match b with
  | ⟨0, _⟩ =>
    show cc.val = win0_0.index t 0 * 5 + 1 * cc.val
    rw [(idx_facts t).1]; omega
  | ⟨1, _⟩ =>
    show 32768 * t.val + k.val = win0_0.index t 1 * 32768 + 1 * k.val
    rw [(idx_facts t).2.1]; omega

/-- The labels block. -/
theorem blk1_apply (c : Dev nD) (t : Fin cfg0.N) (k : Fin 32768) :
    (iblk m c 1 t : Vec Ideal S1x32768 .i32) (ix2 0 k) = m ((c : Thread nD τ).loc main_arg1) (ix1 (sampleOf (pt t) k)) := by
  unfold iblk
  rw [View.read_apply]
  show V m c main_v2 _ = _
  rw [V_v2]
  refine shapeCast_apply _ _ _ (ix1 (sampleOf (pt t) k)) ?_
  rw [Shape.rowMajor_val_one, Shape.rowMajor_val_two]
  show 32768 * t.val + k.val = (win0_1.index t 0 * 1 + 1 * 0) * 8388608 + (win0_1.index t 1 * 32768 + 1 * k.val)
  rw [(idx_facts t).2.2.1, (idx_facts t).2.2.2.1]; omega

/-- The group ids block. -/
theorem blk2_apply (c : Dev nD) (t : Fin cfg0.N) (k : Fin 32768) :
    (iblk m c 2 t : Vec Ideal S1x32768 .i32) (ix2 0 k) = m ((c : Thread nD τ).loc main_arg2) (ix1 (sampleOf (pt t) k)) := by
  unfold iblk
  rw [View.read_apply]
  show V m c main_v3 _ = _
  rw [V_v3]
  refine shapeCast_apply _ _ _ (ix1 (sampleOf (pt t) k)) ?_
  rw [Shape.rowMajor_val_one, Shape.rowMajor_val_two]
  show 32768 * t.val + k.val = (win0_2.index t 0 * 1 + 1 * 0) * 8388608 + (win0_2.index t 1 * 32768 + 1 * k.val)
  rw [(idx_facts t).2.2.2.2.1, (idx_facts t).2.2.2.2.2.1]; omega

/-- The weights block. -/
theorem blk3_apply (c : Dev nD) (t : Fin cfg0.N) (k : Fin 32768) :
    (iblk m c 3 t : Vec Ideal S1x32768 .f32) (ix2 0 k) = m ((c : Thread nD τ).loc main_arg3) (ix1 (sampleOf (pt t) k)) := by
  unfold iblk
  rw [View.read_apply]
  show V m c main_v4 _ = _
  rw [V_v4]
  refine shapeCast_apply _ _ _ (ix1 (sampleOf (pt t) k)) ?_
  rw [Shape.rowMajor_val_one, Shape.rowMajor_val_two]
  show 32768 * t.val + k.val = (win0_3.index t 0 * 1 + 1 * 0) * 8388608 + (win0_3.index t 1 * 32768 + 1 * k.val)
  rw [(idx_facts t).2.2.2.2.2.2.1, (idx_facts t).2.2.2.2.2.2.2.1]; omega

end Cert.KernelIdeal.KVal

end
-- ==== Proof.KPieces.lean ====
/-
  What each control case of the kernel body leaves behind, read as values.

  The body keeps a 32 × 16 accumulator. At the first step of a run of 128 grid steps it stores zeros into it; at
  every step it adds the step's 32 × 16 product of the one-hot rows into it; at the last step of the run it copies the
  accumulator into the output block. So after a first step the accumulator holds zero plus that step's product,
  after any other step the previous contents plus the step's product, and the output block after a last step holds the
  accumulator viewed 1 × 32 × 16.
-/
import proofs.«414519_j4698694221868_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step's update of the accumulator `a` from the step's four input blocks: the accumulator plus the product of
    the one-hot rows built from the weighted losses, the weights and the two nibbles of the group ids. -/
def stepAcc (x0 : Vec F S5x32768 .bf16) (x1 x2 : Vec F S1x32768 .i32) (x3 : Vec F S1x32768 .f32) (a : Vec F S32x16 .f32) : Vec F S32x16 .f32 :=
  k0_pay1 (k0_pay4 x3) (k0_pay5 x0 x1 x3) (k0_pay7 x2) (k0_pay8 x2) a

/-- A first step of a run: zeros are stored, read back, and the step's product is added. -/
theorem scratch_first (c : Dev nD) (i : grid0.Coords) (arg2 : Memref sig .tc .vmem S5x32768 .bf16) (harg2 : arg2.IsWhole) (arg3 : Memref sig .tc .vmem S1x32768 .i32) (harg3 : arg3.IsWhole) (arg4 : Memref sig .tc .vmem S1x32768 .i32) (harg4 : arg4.IsWhole) (arg5 : Memref sig .tc .vmem S1x32768 .f32) (harg5 : arg5.IsWhole) (arg6 : Memref sig .tc .vmem S1x32x16 .f32) (harg6 : arg6.IsWhole) (arg7 : Memref sig .tc .vmem S32x16 .f32) (harg7 : arg7.IsWhole) (hc0 : cond0_0 i) (hc1 : ¬cond0_1 i)
    (x0 : Vec F S5x32768 .bf16) (x1 : Vec F S1x32768 .i32) (x2 : Vec F S1x32768 .i32) (x3 : Vec F S1x32768 .f32) :
    sout0_A_0 c i arg2 harg2 arg3 harg3 arg4 harg4 arg5 harg5 arg6 harg6 arg7 harg7 hc0 hc1 x0 x1 x2 x3 = stepAcc x0 x1 x2 x3 (k0_pay3 (F := F)) := by
  unfold sout0_A_0 stepAcc
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S32x16) hz2, View.readCov_unit_zero (S := S32x16) _ hz2]
  simp only [View.readAt_eq_ld, harg2.read_unread, harg3.read_unread, harg4.read_unread, harg5.read_unread,
    View.ld_unit_zero (S := S5x32768) hz2, View.ld_unit_zero (S := S1x32768) hz2]

/-- A middle step: the previous contents `xs0` plus the step's product. -/
theorem scratch_mid (c : Dev nD) (i : grid0.Coords) (arg2 : Memref sig .tc .vmem S5x32768 .bf16) (harg2 : arg2.IsWhole) (arg3 : Memref sig .tc .vmem S1x32768 .i32) (harg3 : arg3.IsWhole) (arg4 : Memref sig .tc .vmem S1x32768 .i32) (harg4 : arg4.IsWhole) (arg5 : Memref sig .tc .vmem S1x32768 .f32) (harg5 : arg5.IsWhole) (arg6 : Memref sig .tc .vmem S1x32x16 .f32) (harg6 : arg6.IsWhole) (arg7 : Memref sig .tc .vmem S32x16 .f32) (harg7 : arg7.IsWhole) (hc0 : ¬cond0_0 i) (hc1 : ¬cond0_1 i)
    (x0 : Vec F S5x32768 .bf16) (x1 : Vec F S1x32768 .i32) (x2 : Vec F S1x32768 .i32) (x3 : Vec F S1x32768 .f32) (xs0 : Vec F S32x16 .f32) :
    sout0_B_0 c i arg2 harg2 arg3 harg3 arg4 harg4 arg5 harg5 arg6 harg6 arg7 harg7 hc0 hc1 x0 x1 x2 x3 xs0 = stepAcc x0 x1 x2 x3 xs0 := by
  unfold sout0_B_0 stepAcc
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S5x32768) hz2, View.ld_unit_zero (S := S1x32768) hz2, View.ld_unit_zero (S := S32x16) hz2]

/-- A last step: the accumulator is updated as at a middle step, -/
theorem scratch_last (c : Dev nD) (i : grid0.Coords) (arg2 : Memref sig .tc .vmem S5x32768 .bf16) (harg2 : arg2.IsWhole) (arg3 : Memref sig .tc .vmem S1x32768 .i32) (harg3 : arg3.IsWhole) (arg4 : Memref sig .tc .vmem S1x32768 .i32) (harg4 : arg4.IsWhole) (arg5 : Memref sig .tc .vmem S1x32768 .f32) (harg5 : arg5.IsWhole) (arg6 : Memref sig .tc .vmem S1x32x16 .f32) (harg6 : arg6.IsWhole) (arg7 : Memref sig .tc .vmem S32x16 .f32) (harg7 : arg7.IsWhole) (hc0 : ¬cond0_0 i) (hc1 : cond0_1 i)
    (x0 : Vec F S5x32768 .bf16) (x1 : Vec F S1x32768 .i32) (x2 : Vec F S1x32768 .i32) (x3 : Vec F S1x32768 .f32) (xs0 : Vec F S32x16 .f32) :
    sout0_C_0 c i arg2 harg2 arg3 harg3 arg4 harg4 arg5 harg5 arg6 harg6 arg7 harg7 hc0 hc1 x0 x1 x2 x3 xs0 = stepAcc x0 x1 x2 x3 xs0 := by
  unfold sout0_C_0 stepAcc
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S5x32768) hz2, View.ld_unit_zero (S := S1x32768) hz2, View.ld_unit_zero (S := S32x16) hz2]

/-- and the output block receives the updated accumulator, viewed 1 × 32 × 16. -/
theorem out_last (c : Dev nD) (i : grid0.Coords) (arg2 : Memref sig .tc .vmem S5x32768 .bf16) (harg2 : arg2.IsWhole) (arg3 : Memref sig .tc .vmem S1x32768 .i32) (harg3 : arg3.IsWhole) (arg4 : Memref sig .tc .vmem S1x32768 .i32) (harg4 : arg4.IsWhole) (arg5 : Memref sig .tc .vmem S1x32768 .f32) (harg5 : arg5.IsWhole) (arg6 : Memref sig .tc .vmem S1x32x16 .f32) (harg6 : arg6.IsWhole) (arg7 : Memref sig .tc .vmem S32x16 .f32) (harg7 : arg7.IsWhole) (hc0 : ¬cond0_0 i) (hc1 : cond0_1 i)
    (x0 : Vec F S5x32768 .bf16) (x1 : Vec F S1x32768 .i32) (x2 : Vec F S1x32768 .i32) (x3 : Vec F S1x32768 .f32) (xs0 : Vec F S32x16 .f32) :
    out0_C_4 c i arg2 harg2 arg3 harg3 arg4 harg4 arg5 harg5 arg6 harg6 arg7 harg7 hc0 hc1 x0 x1 x2 x3 xs0 = k0_pay2 (stepAcc x0 x1 x2 x3 xs0) := by
  unfold out0_C_4 stepAcc
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S32x16) _ hz2]
  simp only [View.readAt_eq_ld, harg2.read_unread, harg3.read_unread, harg4.read_unread, harg5.read_unread, harg7.read_unread,
    View.ld_unit_zero (S := S5x32768) hz2, View.ld_unit_zero (S := S1x32768) hz2, View.ld_unit_zero (S := S32x16) hz2]

end Cert.KernelIdeal.KVal

end
-- ==== Proof.SegMath.lean ====
/-
  The arithmetic that joins the two arrangements of one sum.

  * A comparison bit as an extended real is `1` or `0`.
  * A 32-bit id `c` has high part `c >> 4` (arithmetic shift) equal to `g / 16` and low part `c & 15` equal to
    `g % 16` exactly when `c`, read signed, is `g`, for `g < 256`: the two nibbles of an id in `[0, 256)` determine it,
    and an id outside that range has a high part outside `[0, 16)`.
  * So a sum over all samples, block by block, of `f n` times the two nibble indicators is the segment sum of `f`.
  * A row's products with the one-hot indicator of a label in `[0, 5)` sum to the row's entry at the label.
  * A quantity reset at every 128th step and otherwise increased by `P u` is, after step `t`, the sum of `P` over
    the steps from the last reset to `t`; the values after steps 127 and 255 add up to the sum over all 256 steps.
-/
import proofs.«414519_j4698694221868_3_alg».proof.Proof.Spec
import Mathlib.Algebra.BigOperators.Intervals
import Mathlib.Algebra.BigOperators.Fin
import Mathlib.Data.Fintype.BigOperators

noncomputable section

namespace Cert.SegLoss

open Idealize.ShloMosaic Idealize.ShloMosaic.ValueIdx

theorem ind_one : ind 1#1 = 1 := by
  have h : (BitVec.setWidth 32 1#1).toInt = 1 := rfl
  simp only [ind, h]
  norm_num

theorem ind_zero : ind 0#1 = 0 := by
  have h : (BitVec.setWidth 32 0#1).toInt = 0 := rfl
  simp only [ind, h]
  norm_num

theorem ind_cmpi_eq {w : Nat} (a b : BitVec w) : ind (IntOp.cmpi .eq a b) = if a = b then 1 else 0 := by
  by_cases h : a = b
  · have hb : (a == b) = true := by simpa using h
    simp only [IntOp.cmpi, hb, BitVec.ofBool_true, if_pos h]
    exact ind_one
  · have hb : (a == b) = false := by simpa using h
    simp only [IntOp.cmpi, hb, BitVec.ofBool_false, if_neg h]
    exact ind_zero

/-- The arithmetic shift by four, read signed, is the floor quotient by sixteen. -/
theorem toInt_shrsi_four (c : BitVec 32) : (IntOp.shrsi .vector c 4#32).toInt = c.toInt / 16 := by
  have h4 : (4#32 : BitVec 32).toNat = 4 := rfl
  have hlt : (4#32 : BitVec 32).toNat < 32 := by rw [h4]; norm_num
  unfold IntOp.shrsi
  rw [if_pos hlt, BitVec.sshiftRight', h4, BitVec.toInt_sshiftRight, Int.shiftRight_eq_div_pow]
  norm_num

/-- The low four bits, read unsigned, are the remainder by sixteen. -/
theorem toNat_andi_fifteen (c : BitVec 32) : (IntOp.andi c 15#32).toNat = c.toNat % 16 := by
  have h15 : (15#32 : BitVec 32).toNat = 2 ^ 4 - 1 := rfl
  simp only [IntOp.andi, BitVec.toNat_and, h15, Nat.and_two_pow_sub_one_eq_mod]

/-- The two nibbles match `g`'s exactly when the id, read signed, is `g`. -/
theorem nibble_iff (c : BitVec 32) (g : ℕ) (hg : g < 256) :
    (BitVec.ofNat 32 (g / 16) = IntOp.shrsi .vector c 4#32 ∧ BitVec.ofNat 32 (g % 16) = IntOp.andi c 15#32) ↔ c.toInt = (g : ℤ) := by
  have hc := c.isLt
  have hci := BitVec.toInt_eq_toNat_cond c
  -- the high part of `g`, as a word read signed, and the low part, read unsigned
  have hhi : (BitVec.ofNat 32 (g / 16)).toInt = ((g / 16 : ℕ) : ℤ) := by
    rw [BitVec.toInt_eq_toNat_cond, BitVec.toNat_ofNat]
    have : g / 16 % 2 ^ 32 = g / 16 := Nat.mod_eq_of_lt (by omega)
    rw [this]; split <;> omega
  have hlo : (BitVec.ofNat 32 (g % 16)).toNat = g % 16 := by
    rw [BitVec.toNat_ofNat]; exact Nat.mod_eq_of_lt (by omega)
  constructor
  · rintro ⟨h1, h2⟩
    have e1 := congrArg BitVec.toInt h1
    have e2 := congrArg BitVec.toNat h2
    rw [hhi, toInt_shrsi_four] at e1
    rw [hlo, toNat_andi_fifteen] at e2
    split at hci <;> omega
  · intro h
    have hn : c.toNat = g := by split at hci <;> omega
    constructor
    · apply BitVec.eq_of_toInt_eq
      rw [hhi, toInt_shrsi_four, h]; omega
    · apply BitVec.eq_of_toNat_eq
      rw [hlo, toNat_andi_fifteen, hn]

/-- Blocks of 32768 consecutive samples tile the samples: block and lane against sample number. -/
def sampleEquiv : Fin 256 × Fin 32768 ≃ Fin NS where
  toFun p := sampleOf p.1 p.2
  invFun n := (⟨n.val / 32768, by have : n.val < 8388608 := n.isLt; omega⟩,
               ⟨n.val % 32768, Nat.mod_lt _ (by norm_num)⟩)
  left_inv := by
    rintro ⟨t, k⟩
    have := t.isLt; have := k.isLt
    apply Prod.ext <;> apply Fin.ext <;> simp only [sampleOf] <;> omega
  right_inv := by
    intro n
    apply Fin.ext
    simp only [sampleOf]
    omega

/-- The sum over all blocks and lanes of `f` times the two nibble indicators is the segment sum. -/
theorem nibble_sum (f : Fin NS → EReal) (cl : Fin NS → BitVec 32) (g : ℕ) (hg : g < 256) :
    ∑ t : Fin 256, ∑ k : Fin 32768,
        f (sampleOf t k) * ind (IntOp.cmpi .eq (BitVec.ofNat 32 (g / 16)) (IntOp.shrsi .vector (cl (sampleOf t k)) 4#32))
          * ind (IntOp.cmpi .eq (BitVec.ofNat 32 (g % 16)) (IntOp.andi (cl (sampleOf t k)) 15#32))
      = segSum f cl g := by
  -- one summand: `f n` where the id of `n` is `g`, zero elsewhere
  have hterm : ∀ n : Fin NS,
      f n * ind (IntOp.cmpi .eq (BitVec.ofNat 32 (g / 16)) (IntOp.shrsi .vector (cl n) 4#32))
          * ind (IntOp.cmpi .eq (BitVec.ofNat 32 (g % 16)) (IntOp.andi (cl n) 15#32))
        = if (cl n).toInt = (g : ℤ) then f n else 0 := by
    intro n
    rw [ind_cmpi_eq, ind_cmpi_eq]
    by_cases h : (cl n).toInt = (g : ℤ)
    · obtain ⟨h1, h2⟩ := (nibble_iff (cl n) g hg).mpr h
      rw [if_pos h1, if_pos h2, if_pos h, mul_one, mul_one]
    · rw [if_neg h]
      by_cases h1 : BitVec.ofNat 32 (g / 16) = IntOp.shrsi .vector (cl n) 4#32
      · have h2 : ¬ BitVec.ofNat 32 (g % 16) = IntOp.andi (cl n) 15#32 :=
          fun h2 => h ((nibble_iff (cl n) g hg).mp ⟨h1, h2⟩)
        rw [if_neg h2, mul_zero]
      · rw [if_neg h1, mul_zero, zero_mul]
  simp only [hterm]
  -- the double sum over blocks and lanes is the sum over all samples
  rw [← Fintype.sum_prod_type' (f := fun t k => if (cl (sampleOf t k)).toInt = (g : ℤ) then f (sampleOf t k) else 0)]
  refine (Fintype.sum_equiv sampleEquiv _
    (fun n : Fin NS => if (cl n).toInt = (g : ℤ) then f n else 0) (fun _ => rfl)).trans ?_
  rw [segSum, Finset.sum_filter]

/-- A row against the one-hot indicator of an in-range label picks the row's entry at the label. -/
theorem onehot_sum (L : Fin 5 → EReal) (y : BitVec 32) (hy : y.toNat < 5) :
    ∑ c : Fin 5, L c * ind (IntOp.cmpi .eq (BitVec.ofNat 32 c.val) y) = L (cls y) := by
  -- the word of a class number is the label exactly at the label's class
  have key : ∀ c : Fin 5, BitVec.ofNat 32 c.val = y ↔ c = cls y := by
    intro c
    have hc := c.isLt
    constructor
    · intro h
      have e := congrArg BitVec.toNat h
      rw [BitVec.toNat_ofNat] at e
      apply Fin.ext
      simp only [cls]
      omega
    · rintro rfl
      apply BitVec.eq_of_toNat_eq
      rw [BitVec.toNat_ofNat]
      simp only [cls]
      omega
  rw [Finset.sum_eq_single (cls y)]
  · rw [ind_cmpi_eq, if_pos ((key _).mpr rfl), mul_one]
  · intro c _ hc
    rw [ind_cmpi_eq, if_neg (fun h => hc ((key c).mp h)), mul_zero]
  · intro h; exact absurd (Finset.mem_univ _) h

/-- After step `t`, a quantity reset at every 128th step is the sum of the increments since the last reset. -/
theorem run_sum {M : Type*} [AddCommMonoid M] (P : ℕ → M) (acc : ℕ → M)
    (h0 : ∀ t, t % 128 = 0 → acc t = P t) (hs : ∀ t, t % 128 ≠ 0 → acc t = acc (t - 1) + P t) (t : ℕ) :
    acc t = ∑ u ∈ Finset.Ico (128 * (t / 128)) (t + 1), P u := by
  induction t with
  | zero => rw [h0 0 (by norm_num)]; simp
  | succ n ih =>
    by_cases h : (n + 1) % 128 = 0
    · rw [h0 _ h]
      have e : 128 * ((n + 1) / 128) = n + 1 := by omega
      rw [e, Nat.Ico_succ_singleton, Finset.sum_singleton]
    · rw [hs _ h, Nat.add_sub_cancel, ih]
      have e : 128 * ((n + 1) / 128) = 128 * (n / 128) := by omega
      rw [e]
      exact (Finset.sum_Ico_succ_top (by omega) P).symm

/-- The two runs of 128 steps together are all 256 steps. -/
theorem two_runs {M : Type*} [AddCommMonoid M] (P : ℕ → M) :
    (∑ u ∈ Finset.Ico (128 * (127 / 128)) (127 + 1), P u) + (∑ u ∈ Finset.Ico (128 * (255 / 128)) (255 + 1), P u)
      = ∑ t : Fin 256, P t.val := by
  have e1 : 128 * (127 / 128) = 0 := by norm_num
  have e2 : 128 * (255 / 128) = 128 := by norm_num
  have e3 : 127 + 1 = 128 := by norm_num
  have e4 : 255 + 1 = 256 := by norm_num
  rw [e1, e2, e3, e4, Finset.sum_Ico_consecutive P (by norm_num) (by norm_num), Nat.Ico_zero_eq_range,
    Fin.sum_univ_eq_sum_range]

end Cert.SegLoss

end
-- ==== Proof.KStep.lean ====
/-
  One grid step's update of the accumulator, read at an index over the extended reals.

  Entry (r, l) of the update is the old entry plus the sum over the step's 32768 samples of a value times two
  indicators: rows 0–15 carry the sample's weighted loss, rows 16–31 its weight; the row's indicator says the high
  nibble of the sample's group id is `r mod 16`, the column's that the low nibble is `l`. The weighted loss is minus
  the log-softmax of the sample's five logits at its label, times its weight: the kernel forms it as zero minus the sum
  of the row against the label's one-hot indicator, which for a label in `[0, 5)` is the entry at the label.
-/
import proofs.«414519_j4698694221868_3_alg».proof.Proof.KPieces
import proofs.«414519_j4698694221868_3_alg».proof.Proof.SegMath
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic

noncomputable section

open Idealize.ShloMosaic Idealize.ShloMosaic.TcCoe Idealize.ShloMosaic.ValueIdx

namespace Cert.KernelIdeal.KVal

open Cert.KernelIdeal Cert.KernelIdeal.Gen Cert.SegLoss

/-! ## Small readings at an index -/

/-- A column broadcast along the rows' lanes: an `[a, 1]` array broadcast to `[a, b]` reads, at `(p, c)`, the operand's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum down the five rows of a block, at lane `k`. -/
theorem rows_sum (v : FVec Ideal S5x32768 .f32) (k : Fin 32768) :
    multiReduction .add [0] S32768 v 0x00000000#32 reduces_S5x32768_S32768 (.inl rfl) rfl (ix1 k) = ∑ c : Fin 5, v (ix2 c k) := by
  refine (Ideal.multiReduction_add_single v _ reduces_S5x32768_S32768 _ _ (ix1 k)).trans ?_
  refine Finset.sum_congr rfl fun c _ => congrArg v ?_
  funext a
  match a with
  | ⟨0, _⟩ => rfl
  | ⟨1, _⟩ => rfl

/-- The maximum down the five rows of a block, at lane `k`: the fold of `max` from the accumulator's value. -/
theorem rows_max (v : FVec Ideal S5x32768 .f32) (k : Fin 32768) :
    multiReduction .maximumf [0] S32768 v 0xFF800000#32 reduces_S5x32768_S32768 (.inl rfl) rfl (ix1 k)
      = (Finset.univ : Finset (Fin 5)).fold max negInf (fun c => v (ix2 c k)) := by
  refine (Ideal.multiReduction_maximumf_single v _ reduces_S5x32768_S32768 _ _ (ix1 k)).trans ?_
  refine congrArg (fun f => (Finset.univ : Finset (Fin 5)).fold max negInf f) ?_
  funext c
  refine congrArg v ?_
  funext a
  match a with
  | ⟨0, _⟩ => rfl
  | ⟨1, _⟩ => rfl

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) : cmpi p a b i = IntOp.cmpi p (a i) (b i) := rfl
theorem shrsi_apply {s : Shape} {w : ℕ} (a b : IVec s w) (i : s.Idx) : shrsi a b i = IntOp.shrsi .vector (a i) (b i) := rfl
theorem andi_apply {s : Shape} {w : ℕ} (a b : IVec s w) (i : s.Idx) : andi a b i = IntOp.andi (a i) (b i) := rfl
/-- A widened comparison bit converted to a float is the indicator. -/
theorem sitofp_setWidth_eq_ind (b : BitVec 1) : FloatOps.sitofp (F := Ideal) .f32 (b.setWidth 32) = ind b := rfl

/-! ## The weighted loss of a block, lane by lane -/

/-- The row maxima of a 5 × 32768 block, kept 1 × 32768: `max` of −∞ and the fold of `max` from −∞ down the rows. -/
def kMax (x : FVec Ideal S5x32768 .f32) : FVec Ideal S1x32768 .f32 :=
  shapeCast S1x32768 (maximumf (broadcast S32768 (Scalar.ofBits .f32 0xFF800000#32))
    (multiReduction .maximumf [0] S32768 x 0xFF800000#32 reduces_S5x32768_S32768 (.inl rfl) rfl)) shapeCasts_S32768_S1x32768

/-- The block less its row maxima. -/
def kShift (x : FVec Ideal S5x32768 .f32) : FVec Ideal S5x32768 .f32 :=
  subf x (broadcastTo S5x32768 (kMax x) broadcasts_S1x32768_S5x32768)

/-- The logarithm of the sum down the rows of the shifted block's exponentials. -/
def kLse (x : FVec Ideal S5x32768 .f32) : FVec Ideal S1x32768 .f32 :=
  log (shapeCast S1x32768 (multiReduction .add [0] S32768 (exp (kShift x)) 0x00000000#32 reduces_S5x32768_S32768 (.inl rfl) rfl)
    shapeCasts_S32768_S1x32768)

/-- The log-softmax down the rows. -/
def kLogp (x : FVec Ideal S5x32768 .f32) : FVec Ideal S5x32768 .f32 :=
  subf (kShift x) (broadcastTo S5x32768 (kLse x) broadcasts_S1x32768_S5x32768)

/-- The one-hot rows of the labels: row `c` holds the indicator that the lane's label is `c`. -/
def kOneHot5 (y : IVec S1x32768 32) : FVec Ideal S5x32768 .f32 :=
  sitofp .f32 (extui 32 (cmpi .eq (broadcastTo S5x32768 (iota .tc S5x1 32 [0] iota_S5x1_d0_w32) broadcasts_S5x1_S5x32768)
    (broadcastTo S5x32768 y broadcasts_S1x32768_S5x32768)) natLt_1_32)

/-- The kernel's weighted-loss value, written with the functions above. -/
theorem pay5_eq (x0 : Vec Ideal S5x32768 .bf16) (x1 : Vec Ideal S1x32768 .i32) (x3 : Vec Ideal S1x32768 .f32) :
    k0_pay5 (F := Ideal) x0 x1 x3
      = mulf (subf (broadcast S1x32768 (Scalar.ofBits .f32 0x00000000#32))
          (shapeCast S1x32768 (multiReduction .add [0] S32768
            (mulf (kLogp (extf .f32 (shapeCast S5x32768 x0 shapeCasts_S5x32768_S5x32768) bitsLt_bf16_f32))
              (kOneHot5 (shapeCast S1x32768 x1 shapeCasts_S1x32768_S1x32768)))
            0x00000000#32 reduces_S5x32768_S32768 (.inl rfl) rfl) shapeCasts_S32768_S1x32768))
        (shapeCast S1x32768 x3 shapeCasts_S1x32768_S1x32768) := rfl

theorem kMax_apply (x : FVec Ideal S5x32768 .f32) (k : Fin 32768) :
    kMax x (ix2 0 k) = rowMax (fun c => x (ix2 c k)) := by
  unfold kMax
  rw [shapeCast_a_1a_apply, maximumf_apply, broadcast_apply, rows_max]
  rfl

theorem kShift_apply (x : FVec Ideal S5x32768 .f32) (c : Fin 5) (k : Fin 32768) :
    kShift x (ix2 c k) = x (ix2 c k) - rowMax (fun c => x (ix2 c k)) := by
  unfold kShift
  rw [subf_apply, broadcastTo_1b_ab_apply, kMax_apply]

theorem kLse_apply (x : FVec Ideal S5x32768 .f32) (k : Fin 32768) :
    kLse x (ix2 0 k) = Ideal.log (∑ c : Fin 5, Ideal.exp (x (ix2 c k) - rowMax (fun c => x (ix2 c k)))) := by
  unfold kLse
  rw [log_apply, shapeCast_a_1a_apply, rows_sum]
  refine congrArg Ideal.log (Finset.sum_congr rfl fun c _ => ?_)
  rw [exp_apply, kShift_apply]

theorem kLogp_apply (x : FVec Ideal S5x32768 .f32) (c : Fin 5) (k : Fin 32768) :
    kLogp x (ix2 c k) = logSoftmax (fun c => x (ix2 c k)) c := by
  unfold kLogp
  rw [subf_apply, broadcastTo_1b_ab_apply, kShift_apply, kLse_apply]
  rfl

theorem kOneHot5_apply (y : IVec S1x32768 32) (c : Fin 5) (k : Fin 32768) :
    kOneHot5 y (ix2 c k) = ind (IntOp.cmpi .eq (BitVec.ofNat 32 c.val) (y (ix2 0 k))) := by
  unfold kOneHot5
  rw [sitofp_apply, extui_apply, cmpi_apply, broadcastTo_a1_ab_apply, broadcastTo_1b_ab_apply, iota_single_apply]
  rfl

/-- The weighted loss at lane `k`, for a label in range: minus the log-softmax at the label, times the weight. -/
theorem pay5_apply (x0 : Vec Ideal S5x32768 .bf16) (x1 : Vec Ideal S1x32768 .i32) (x3 : Vec Ideal S1x32768 .f32)
    (k : Fin 32768) (hy : (x1 (ix2 0 k) : BitVec 32).toNat < 5) :
    k0_pay5 (F := Ideal) x0 x1 x3 (ix2 0 k) = wnll (fun c => x0 (ix2 c k)) (cls (x1 (ix2 0 k))) (x3 (ix2 0 k)) := by
  rw [pay5_eq, mulf_apply, subf_apply, broadcast_apply, shapeCast_a_1a_apply, rows_sum]
  simp only [shapeCast_self]
  have e : ∀ c : Fin 5, mulf (kLogp (extf .f32 x0 bitsLt_bf16_f32)) (kOneHot5 x1) (ix2 c k)
      = logSoftmax (fun c => x0 (ix2 c k)) c * ind (IntOp.cmpi .eq (BitVec.ofNat 32 c.val) (x1 (ix2 0 k))) := fun c => by
    rw [mulf_apply, kLogp_apply, kOneHot5_apply]
    rfl
  rw [Finset.sum_congr rfl fun c _ => e c, onehot_sum _ _ hy]
  show (Ideal.ofBits .f32 0x00000000#32 - _) * _ = _
  rw [Ideal.ofBits_zero_f32, zero_sub]
  rfl

/-! ## The step's product, entry by entry -/

/-- The one-hot rows of a word in `[0, 16)`: row `r` holds the indicator that the lane's word is `r`. -/
def kOneHot16 (g : IVec S1x32768 32) : FVec Ideal S16x32768 .bf16 :=
  truncf .bf16 (sitofp .f32 (extui 32 (cmpi .eq (broadcastTo S16x32768 (iota .tc S16x1 32 [0] iota_S16x1_d0_w32) broadcasts_S16x1_S16x32768)
    (broadcastTo S16x32768 g broadcasts_S1x32768_S16x32768)) natLt_1_32)) bitsLt_bf16_f32

/-- A row of values times each of sixteen rows. -/
def kScaled (w : FVec Ideal S1x32768 .f32) (oh : FVec Ideal S16x32768 .bf16) : FVec Ideal S16x32768 .bf16 :=
  mulf (broadcastTo S16x32768 (truncf .bf16 w bitsLt_bf16_f32) broadcasts_S1x32768_S16x32768) oh

/-- The left factor: the losses' sixteen rows above the weights' sixteen rows. -/
def kLhs (w sw : FVec Ideal S1x32768 .f32) (hi : IVec S1x32768 32) : FVec Ideal S32x32768 .bf16 :=
  concatenate S32x32768 0 [⟨S16x32768, kScaled w (kOneHot16 hi)⟩, ⟨S16x32768, kScaled sw (kOneHot16 hi)⟩]
    concatenates_S16x32768_S16x32768_S32x32768_d0

/-- The kernel's updated accumulator, written with the functions above. -/
theorem pay1_eq (sw w : FVec Ideal S1x32768 .f32) (hi lo : IVec S1x32768 32) (a : Vec Ideal S32x16 .f32) :
    k0_pay1 (F := Ideal) sw w hi lo a
      = shapeCast S32x16 (addf a (matmul dot_S32x32768_S16x32768_S32x16_1_1_0_0_n_n none (kLhs w sw hi) (kOneHot16 lo)
          (constant S32x16 .f32 0x00000000#32))) shapeCasts_S32x16_S32x16 := rfl

theorem kOneHot16_apply (g : IVec S1x32768 32) (r : Fin 16) (k : Fin 32768) :
    kOneHot16 g (ix2 r k) = ind (IntOp.cmpi .eq (BitVec.ofNat 32 r.val) (g (ix2 0 k))) := by
  unfold kOneHot16
  rw [truncf_apply, sitofp_apply, extui_apply, cmpi_apply, broadcastTo_a1_ab_apply, broadcastTo_1b_ab_apply, iota_single_apply]
  rfl

theorem kScaled_apply (w : FVec Ideal S1x32768 .f32) (oh : FVec Ideal S16x32768 .bf16) (r : Fin 16) (k : Fin 32768) :
    kScaled w oh (ix2 r k) = w (ix2 0 k) * oh (ix2 r k) := by
  unfold kScaled
  rw [mulf_apply, broadcastTo_1b_ab_apply, truncf_apply]

/-- Rows 0–15 of the left factor. -/
theorem kLhs_apply_top (w sw : FVec Ideal S1x32768 .f32) (hi : IVec S1x32768 32) (r : Fin 32) (h : r.val < 16) (k : Fin 32768) :
    kLhs w sw hi (ix2 r k) = w (ix2 0 k) * ind (IntOp.cmpi .eq (BitVec.ofNat 32 r.val) (hi (ix2 0 k))) := by
  unfold kLhs
  refine (concatenate_pair_apply_left (t := S32x32768) (s₁ := S16x32768) (s₂ := S16x32768) 0 _ _ _ (ix2 r k) rfl
    (ix2 (⟨r.val, h⟩ : Fin 16) k) fun b => ?_).trans ?_
  · match b with
    | ⟨0, _⟩ => rfl
    | ⟨1, _⟩ => rfl
  · rw [kScaled_apply, kOneHot16_apply]

/-- Rows 16–31 of the left factor. -/
theorem kLhs_apply_bot (w sw : FVec Ideal S1x32768 .f32) (hi : IVec S1x32768 32) (r : Fin 32) (h : 16 ≤ r.val) (k : Fin 32768) :
    kLhs w sw hi (ix2 r k) = sw (ix2 0 k) * ind (IntOp.cmpi .eq (BitVec.ofNat 32 (r.val - 16)) (hi (ix2 0 k))) := by
  unfold kLhs
  refine (concatenate_pair_apply_right (t := S32x32768) (s₁ := S16x32768) (s₂ := S16x32768) 0 _ _ _ (ix2 r k) rfl rfl
    (ix2 (⟨r.val - 16, by have := r.isLt; omega⟩ : Fin 16) k) (fun b hb => ?_) ?_).trans ?_
  · match b with
    | ⟨0, _⟩ => exact absurd rfl hb
    | ⟨1, _⟩ => rfl
  · show r.val - 16 + 16 = r.val
    omega
  · rw [kScaled_apply, kOneHot16_apply]

/-- Every row of the left factor: the loss or the weight, times the indicator of the row's number modulo sixteen. -/
theorem kLhs_apply (w sw : FVec Ideal S1x32768 .f32) (hi : IVec S1x32768 32) (r : Fin 32) (k : Fin 32768) :
    kLhs w sw hi (ix2 r k)
      = (if r.val < 16 then w (ix2 0 k) else sw (ix2 0 k)) * ind (IntOp.cmpi .eq (BitVec.ofNat 32 (r.val % 16)) (hi (ix2 0 k))) := by
  by_cases h : r.val < 16
  · rw [if_pos h, Nat.mod_eq_of_lt h]
    exact kLhs_apply_top w sw hi r h k
  · have h16 : 16 ≤ r.val := Nat.le_of_not_lt h
    have hm : r.val % 16 = r.val - 16 := by have := r.isLt; omega
    rw [if_neg h, hm]
    exact kLhs_apply_bot w sw hi r h16 k

/-! ## The product's operand indices, axis by axis -/

theorem dot_lhs_0 (j : S32x16.Idx) (q : dot_S32x32768_S16x32768_S32x16_1_1_0_0_n_n.contr.Idx) :
    ((dot_S32x32768_S16x32768_S32x16_1_1_0_0_n_n.lhsIdx j q) 0 : ℕ) = (j 0 : ℕ) := by
  simp [DotDims.lhsIdx, dot_S32x32768_S16x32768_S32x16_1_1_0_0_n_n]; rfl

theorem dot_lhs_1 (j : S32x16.Idx) (q : dot_S32x32768_S16x32768_S32x16_1_1_0_0_n_n.contr.Idx) :
    ((dot_S32x32768_S16x32768_S32x16_1_1_0_0_n_n.lhsIdx j q) 1 : ℕ) = (q ⟨0, by decide⟩ : ℕ) :=
  dot_S32x32768_S16x32768_S32x16_1_1_0_0_n_n.lhsIdx_val_of_single (cl := 1) rfl j q

theorem dot_rhs_0 (j : S32x16.Idx) (q : dot_S32x32768_S16x32768_S32x16_1_1_0_0_n_n.contr.Idx) :
    ((dot_S32x32768_S16x32768_S32x16_1_1_0_0_n_n.rhsIdx j q) 0 : ℕ) = (j 1 : ℕ) := by
  simp [DotDims.rhsIdx, dot_S32x32768_S16x32768_S32x16_1_1_0_0_n_n]; rfl

theorem dot_rhs_1 (j : S32x16.Idx) (q : dot_S32x32768_S16x32768_S32x16_1_1_0_0_n_n.contr.Idx) :
    ((dot_S32x32768_S16x32768_S32x16_1_1_0_0_n_n.rhsIdx j q) 1 : ℕ) = (q ⟨0, by decide⟩ : ℕ) :=
  dot_S32x32768_S16x32768_S32x16_1_1_0_0_n_n.rhsIdx_val_of_single (cr := 1) rfl j q

/-- The contraction's index is the lane. -/
abbrev laneEquiv : dot_S32x32768_S16x32768_S32x16_1_1_0_0_n_n.contr.Idx ≃ Fin 32768 :=
  contrEquiv1 dot_S32x32768_S16x32768_S32x16_1_1_0_0_n_n 32768 rfl rfl

/-- The product into zero at (r, l): the sum over the lanes of the two factors' entries. -/
theorem matmul_rl (L : FVec Ideal S32x32768 .bf16) (R : FVec Ideal S16x32768 .bf16) (r : Fin 32) (l : Fin 16) :
    matmul dot_S32x32768_S16x32768_S32x16_1_1_0_0_n_n none L R (constant S32x16 .f32 0x00000000#32) (ix2 r l)
      = ∑ k : Fin 32768, L (ix2 r k) * R (ix2 l k) := by
  refine (Ideal.matmul_constant_zero_apply dot_S32x32768_S16x32768_S32x16_1_1_0_0_n_n none L R (ix2 r l)).trans ?_
  rw [← Equiv.sum_comp laneEquiv.symm]
  refine Finset.sum_congr rfl fun k _ => ?_
  have hl : dot_S32x32768_S16x32768_S32x16_1_1_0_0_n_n.lhsIdx (ix2 r l) (laneEquiv.symm k) = ix2 r k := by
    funext a
    match a with
    | ⟨0, _⟩ => exact Fin.ext (dot_lhs_0 (ix2 r l) (laneEquiv.symm k))
    | ⟨1, _⟩ => exact Fin.ext ((dot_lhs_1 (ix2 r l) (laneEquiv.symm k)).trans (contrEquiv1_symm_val _ 32768 rfl rfl k))
  have hr : dot_S32x32768_S16x32768_S32x16_1_1_0_0_n_n.rhsIdx (ix2 r l) (laneEquiv.symm k) = ix2 l k := by
    funext a
    match a with
    | ⟨0, _⟩ => exact Fin.ext (dot_rhs_0 (ix2 r l) (laneEquiv.symm k))
    | ⟨1, _⟩ => exact Fin.ext ((dot_rhs_1 (ix2 r l) (laneEquiv.symm k)).trans (contrEquiv1_symm_val _ 32768 rfl rfl k))
  rw [hl, hr]

/-! ## The step -/

theorem pay4_eq (x3 : Vec Ideal S1x32768 .f32) : k0_pay4 (F := Ideal) x3 = x3 := by
  unfold k0_pay4
  exact shapeCast_self _ _

/-- The high part of the group ids: the arithmetic shift by four. -/
theorem pay7_apply (x2 : Vec Ideal S1x32768 .i32) (k : Fin 32768) :
    k0_pay7 (F := Ideal) x2 (ix2 0 k) = IntOp.shrsi .vector (x2 (ix2 0 k)) 4#32 := by
  unfold k0_pay7 k0_pay6
  rw [shrsi_apply, shapeCast_self, broadcast_apply]

/-- The low part of the group ids: the low four bits. -/
theorem pay8_apply (x2 : Vec Ideal S1x32768 .i32) (k : Fin 32768) :
    k0_pay8 (F := Ideal) x2 (ix2 0 k) = IntOp.andi (x2 (ix2 0 k)) 15#32 := by
  unfold k0_pay8 k0_pay6
  rw [andi_apply, shapeCast_self, broadcast_apply]

/-- The reset value is zero everywhere. -/
theorem reset_apply (r : Fin 32) (l : Fin 16) : (k0_pay3 (F := Ideal)) (ix2 r l) = 0 := by
  unfold k0_pay3
  rw [shapeCast_self]
  exact Ideal.ofBits_zero_f32

/-- The copy into the output block views the accumulator 1 × 32 × 16. -/
theorem copy_apply (v : Vec Ideal S32x16 .f32) (r : Fin 32) (l : Fin 16) : k0_pay2 (F := Ideal) v (ix3 0 r l) = v (ix2 r l) := by
  unfold k0_pay2
  exact shapeCast_ab_1ab_apply v _ 0 r l

/-- The step's update at (r, l), for labels in range. -/
theorem stepAcc_apply (x0 : Vec Ideal S5x32768 .bf16) (x1 x2 : Vec Ideal S1x32768 .i32) (x3 : Vec Ideal S1x32768 .f32)
    (a : Vec Ideal S32x16 .f32) (hy : ∀ k : Fin 32768, (x1 (ix2 0 k) : BitVec 32).toNat < 5) (r : Fin 32) (l : Fin 16) :
    stepAcc (F := Ideal) x0 x1 x2 x3 a (ix2 r l) = a (ix2 r l) + ∑ k : Fin 32768,
      (if r.val < 16 then wnll (fun c => x0 (ix2 c k)) (cls (x1 (ix2 0 k))) (x3 (ix2 0 k)) else x3 (ix2 0 k))
        * ind (IntOp.cmpi .eq (BitVec.ofNat 32 (r.val % 16)) (IntOp.shrsi .vector (x2 (ix2 0 k)) 4#32))
        * ind (IntOp.cmpi .eq (BitVec.ofNat 32 l.val) (IntOp.andi (x2 (ix2 0 k)) 15#32)) := by
  unfold stepAcc
  rw [pay1_eq, shapeCast_self, addf_apply, matmul_rl]
  refine congrArg (a (ix2 r l) + ·) (Finset.sum_congr rfl fun k _ => ?_)
  rw [kLhs_apply, kOneHot16_apply, pay7_apply, pay8_apply, pay5_apply x0 x1 x3 k (hy k), pay4_eq]

end Cert.KernelIdeal.KVal

end
-- ==== Proof.KAccum.lean ====
/-
  The accumulator after each grid step, as a sum.

  Write `P u` for grid step `u`'s 32 × 16 contribution (the sum over the step's samples of value times the two nibble
  indicators). The first step of a run of 128 leaves `0 + P u`, every later step adds its own `P u` to what the
  step before left, so after step `t` the accumulator holds the sum of `P` over the steps from the start of `t`'s run
  to `t`. The last step of a run copies that into the output block.
-/
import proofs.«414519_j4698694221868_3_alg».proof.Proof.KBlocks
import proofs.«414519_j4698694221868_3_alg».proof.Proof.KStep

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.SegLoss

variable (m : (ℓ : Loc nD τ sig) → Buf (Elt Ideal) ℓ)

/-- The argument arrays of device `c`, by sample. -/
abbrev logit (c : Dev nD) (n : Fin NS) (cc : Fin 5) : EReal := m ((c : Thread nD τ).loc main_arg0) (ix2 n cc)
abbrev label (c : Dev nD) (n : Fin NS) : BitVec 32 := m ((c : Thread nD τ).loc main_arg1) (ix1 n)
abbrev group (c : Dev nD) (n : Fin NS) : BitVec 32 := m ((c : Thread nD τ).loc main_arg2) (ix1 n)
abbrev weight (c : Dev nD) (n : Fin NS) : EReal := m ((c : Thread nD τ).loc main_arg3) (ix1 n)

/-- Rows 0–15 carry the weighted loss, rows 16–31 the weight. -/
def rowVal (c : Dev nD) (r : Fin 32) (n : Fin NS) : EReal :=
  if r.val < 16 then sampleLoss (logit m c) (label m c) (weight m c) n else weight m c n

/-- Grid step `t`'s contribution to entry (r, l). -/
def stepSum (c : Dev nD) (t : Fin 256) (r : Fin 32) (l : Fin 16) : EReal :=
  ∑ k : Fin 32768, rowVal m c r (sampleOf t k)
    * ind (IntOp.cmpi .eq (BitVec.ofNat 32 (r.val % 16)) (IntOp.shrsi .vector (group m c (sampleOf t k)) 4#32))
    * ind (IntOp.cmpi .eq (BitVec.ofNat 32 l.val) (IntOp.andi (group m c (sampleOf t k)) 15#32))

/-- The contribution of step `u` (zero past the grid). -/
def P (c : Dev nD) (u : ℕ) : Fin 32 → Fin 16 → EReal := fun r l => if h : u < 256 then stepSum m c ⟨u, h⟩ r l else 0

/-- The accumulator after step `u` (zero past the grid). -/
def acc (c : Dev nD) (u : ℕ) : Fin 32 → Fin 16 → EReal := fun r l => if h : u < cfg0.N then (outsAt0 m c u h).2 (ix2 r l) else 0

/-- One step's update, over the argument arrays: the old entry plus the step's contribution. -/
theorem step_entry (c : Dev nD) (hy : ∀ n : Fin NS, (label m c n).toNat < 5) (t : ℕ) (h : t < cfg0.N) (a : Vec Ideal S32x16 .f32)
    (r : Fin 32) (l : Fin 16) :
    stepAcc (F := Ideal) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) a (ix2 r l) = a (ix2 r l) + P m c t r l := by
  have h256 : t < 256 := lt_of_lt_of_eq h N_0
  rw [stepAcc_apply (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) a
    (fun k => by rw [blk1_apply m c (⟨t, h⟩ : Fin cfg0.N) k]; exact hy _) r l]
  unfold P stepSum rowVal sampleLoss
  rw [dif_pos h256]
  refine congrArg (a (ix2 r l) + ·) (Finset.sum_congr rfl fun k _ => ?_)
  rw [blk1_apply m c (⟨t, h⟩ : Fin cfg0.N) k, blk2_apply m c (⟨t, h⟩ : Fin cfg0.N) k, blk3_apply m c (⟨t, h⟩ : Fin cfg0.N) k]
  have e0 : (fun cc : Fin 5 => (iblk m c 0 (⟨t, h⟩ : Fin cfg0.N) : Vec Ideal S5x32768 .bf16) (ix2 cc k)) = logit m c (sampleOf (pt (⟨t, h⟩ : Fin cfg0.N)) k) :=
    funext fun cc => blk0_apply m c (⟨t, h⟩ : Fin cfg0.N) cc k
  rw [e0]
  rfl

theorem acc_first (c : Dev nD) (hy : ∀ n : Fin NS, (label m c n).toNat < 5) (t : ℕ) (ht : t % 128 = 0) : acc m c t = P m c t := by
  have hN : cfg0.N = 256 := N_0
  funext r l
  by_cases h : t < cfg0.N
  · have h1 : ¬ t % 128 = 127 := by omega
    show (if h : t < cfg0.N then (outsAt0 m c t h).2 (ix2 r l) else 0) = _
    rw [dif_pos h, outsAt0_A m c (⟨t, h⟩ : Fin cfg0.N) ht h1]
    dsimp only
    refine (congrFun (scratch_first (F := Ideal) c (grid0.coords (⟨t, h⟩ : Fin cfg0.N)) (ms0_0 (⟨t, h⟩ : Fin cfg0.N)) (hs0_0 (⟨t, h⟩ : Fin cfg0.N)) (ms0_1 (⟨t, h⟩ : Fin cfg0.N)) (hs0_1 (⟨t, h⟩ : Fin cfg0.N)) (ms0_2 (⟨t, h⟩ : Fin cfg0.N)) (hs0_2 (⟨t, h⟩ : Fin cfg0.N)) (ms0_3 (⟨t, h⟩ : Fin cfg0.N)) (hs0_3 (⟨t, h⟩ : Fin cfg0.N)) (ms0_4 (⟨t, h⟩ : Fin cfg0.N)) (hs0_4 (⟨t, h⟩ : Fin cfg0.N)) scM0_0 (Memref.isWhole_whole _)
      ((hcond0_0 (⟨t, h⟩ : Fin cfg0.N)).mpr ht) (fun hh => h1 ((hcond0_1 (⟨t, h⟩ : Fin cfg0.N)).mp hh)) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N))) (ix2 r l)).trans ?_
    rw [step_entry m c hy t h, reset_apply, zero_add]
  · show (if h : t < cfg0.N then (outsAt0 m c t h).2 (ix2 r l) else 0) = (if h : t < 256 then stepSum m c ⟨t, h⟩ r l else 0)
    rw [dif_neg h, dif_neg (by omega)]

theorem acc_step (c : Dev nD) (hy : ∀ n : Fin NS, (label m c n).toNat < 5) (t : ℕ) (ht : t % 128 ≠ 0) :
    acc m c t = acc m c (t - 1) + P m c t := by
  have hN : cfg0.N = 256 := N_0
  funext r l
  by_cases h : t < cfg0.N
  · have h' : t - 1 < cfg0.N := by omega
    show (if h : t < cfg0.N then (outsAt0 m c t h).2 (ix2 r l) else 0)
      = (if h : t - 1 < cfg0.N then (outsAt0 m c (t - 1) h).2 (ix2 r l) else 0) + P m c t r l
    rw [dif_pos h, dif_pos h']
    by_cases h1 : t % 128 = 127
    · rw [outsAt0_C m c (⟨t, h⟩ : Fin cfg0.N) ht h1]
      dsimp only
      refine (congrFun (scratch_last (F := Ideal) c (grid0.coords (⟨t, h⟩ : Fin cfg0.N)) (ms0_0 (⟨t, h⟩ : Fin cfg0.N)) (hs0_0 (⟨t, h⟩ : Fin cfg0.N)) (ms0_1 (⟨t, h⟩ : Fin cfg0.N)) (hs0_1 (⟨t, h⟩ : Fin cfg0.N)) (ms0_2 (⟨t, h⟩ : Fin cfg0.N)) (hs0_2 (⟨t, h⟩ : Fin cfg0.N)) (ms0_3 (⟨t, h⟩ : Fin cfg0.N)) (hs0_3 (⟨t, h⟩ : Fin cfg0.N)) (ms0_4 (⟨t, h⟩ : Fin cfg0.N)) (hs0_4 (⟨t, h⟩ : Fin cfg0.N)) scM0_0 (Memref.isWhole_whole _)
        (fun hh => ht ((hcond0_0 (⟨t, h⟩ : Fin cfg0.N)).mp hh)) ((hcond0_1 (⟨t, h⟩ : Fin cfg0.N)).mpr h1) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) (outsAt0 m c (t - 1) h').2) (ix2 r l)).trans ?_
      exact step_entry m c hy t h _ r l
    · rw [outsAt0_B m c (⟨t, h⟩ : Fin cfg0.N) ht h1]
      dsimp only
      refine (congrFun (scratch_mid (F := Ideal) c (grid0.coords (⟨t, h⟩ : Fin cfg0.N)) (ms0_0 (⟨t, h⟩ : Fin cfg0.N)) (hs0_0 (⟨t, h⟩ : Fin cfg0.N)) (ms0_1 (⟨t, h⟩ : Fin cfg0.N)) (hs0_1 (⟨t, h⟩ : Fin cfg0.N)) (ms0_2 (⟨t, h⟩ : Fin cfg0.N)) (hs0_2 (⟨t, h⟩ : Fin cfg0.N)) (ms0_3 (⟨t, h⟩ : Fin cfg0.N)) (hs0_3 (⟨t, h⟩ : Fin cfg0.N)) (ms0_4 (⟨t, h⟩ : Fin cfg0.N)) (hs0_4 (⟨t, h⟩ : Fin cfg0.N)) scM0_0 (Memref.isWhole_whole _)
        (fun hh => ht ((hcond0_0 (⟨t, h⟩ : Fin cfg0.N)).mp hh)) (fun hh => h1 ((hcond0_1 (⟨t, h⟩ : Fin cfg0.N)).mp hh)) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) (outsAt0 m c (t - 1) h').2) (ix2 r l)).trans ?_
      exact step_entry m c hy t h _ r l
  · show (if h : t < cfg0.N then (outsAt0 m c t h).2 (ix2 r l) else 0)
      = (if h : t - 1 < cfg0.N then (outsAt0 m c (t - 1) h).2 (ix2 r l) else 0) + (if h : t < 256 then stepSum m c ⟨t, h⟩ r l else 0)
    rw [dif_neg h, dif_neg (by omega), dif_neg (by omega), add_zero]

/-- After step `t` the accumulator is the sum of the contributions since the start of `t`'s run of 128. -/
theorem acc_eq (c : Dev nD) (hy : ∀ n : Fin NS, (label m c n).toNat < 5) (t : ℕ) :
    acc m c t = ∑ u ∈ Finset.Ico (128 * (t / 128)) (t + 1), P m c u :=
  run_sum (P m c) (acc m c) (fun t ht => acc_first m c hy t ht) (fun t ht => acc_step m c hy t ht) t

/-- The output block after a last step of a run: the accumulator viewed 1 × 32 × 16. -/
theorem out_entry (c : Dev nD) (hy : ∀ n : Fin NS, (label m c n).toNat < 5) (t : ℕ) (h : t < cfg0.N) (h1 : t % 128 = 127)
    (r : Fin 32) (l : Fin 16) :
    (outsAt0 m c t h).1 (ix3 0 r l) = acc m c t r l := by
  have hN : cfg0.N = 256 := N_0
  have ht : ¬ t % 128 = 0 := by omega
  have h' : t - 1 < cfg0.N := by omega
  show _ = (if h : t < cfg0.N then (outsAt0 m c t h).2 (ix2 r l) else 0)
  rw [dif_pos h, outsAt0_C m c (⟨t, h⟩ : Fin cfg0.N) ht h1]
  dsimp only
  refine (congrFun (out_last (F := Ideal) c (grid0.coords (⟨t, h⟩ : Fin cfg0.N)) (ms0_0 (⟨t, h⟩ : Fin cfg0.N)) (hs0_0 (⟨t, h⟩ : Fin cfg0.N)) (ms0_1 (⟨t, h⟩ : Fin cfg0.N)) (hs0_1 (⟨t, h⟩ : Fin cfg0.N)) (ms0_2 (⟨t, h⟩ : Fin cfg0.N)) (hs0_2 (⟨t, h⟩ : Fin cfg0.N)) (ms0_3 (⟨t, h⟩ : Fin cfg0.N)) (hs0_3 (⟨t, h⟩ : Fin cfg0.N)) (ms0_4 (⟨t, h⟩ : Fin cfg0.N)) (hs0_4 (⟨t, h⟩ : Fin cfg0.N)) scM0_0 (Memref.isWhole_whole _)
    (fun hh => ht ((hcond0_0 (⟨t, h⟩ : Fin cfg0.N)).mp hh)) ((hcond0_1 (⟨t, h⟩ : Fin cfg0.N)).mpr h1) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) (outsAt0 m c (t - 1) h').2) (ix3 0 r l)).trans ?_
  rw [copy_apply]
  exact (congrFun (scratch_last (F := Ideal) c (grid0.coords (⟨t, h⟩ : Fin cfg0.N)) (ms0_0 (⟨t, h⟩ : Fin cfg0.N)) (hs0_0 (⟨t, h⟩ : Fin cfg0.N)) (ms0_1 (⟨t, h⟩ : Fin cfg0.N)) (hs0_1 (⟨t, h⟩ : Fin cfg0.N)) (ms0_2 (⟨t, h⟩ : Fin cfg0.N)) (hs0_2 (⟨t, h⟩ : Fin cfg0.N)) (ms0_3 (⟨t, h⟩ : Fin cfg0.N)) (hs0_3 (⟨t, h⟩ : Fin cfg0.N)) (ms0_4 (⟨t, h⟩ : Fin cfg0.N)) (hs0_4 (⟨t, h⟩ : Fin cfg0.N)) scM0_0 (Memref.isWhole_whole _)
    (fun hh => ht ((hcond0_0 (⟨t, h⟩ : Fin cfg0.N)).mp hh)) ((hcond0_1 (⟨t, h⟩ : Fin cfg0.N)).mpr h1) (iblk m c 0 (⟨t, h⟩ : Fin cfg0.N)) (iblk m c 1 (⟨t, h⟩ : Fin cfg0.N)) (iblk m c 2 (⟨t, h⟩ : Fin cfg0.N)) (iblk m c 3 (⟨t, h⟩ : Fin cfg0.N)) (outsAt0 m c (t - 1) h').2) (ix2 r l)).symm

/-- The kernel's 2 × 32 × 16 result array: split `s` holds the accumulator after the last step of run `s`. -/
def outArr (c : Dev nD) : S2x32x16.Idx → EReal := fun j =>
  acc m c (128 * (j 0).val + 127) ⟨(j 1).val, (j 1).isLt⟩ ⟨(j 2).val, (j 2).isLt⟩

theorem acc_congr (c : Dev nD) (u u' : ℕ) (r r' : Fin 32) (l l' : Fin 16) (hu : u = u') (hr : r = r') (hl : l = l') :
    acc m c u r l = acc m c u' r' l' := by subst hu hr hl; rfl

/-- What a last step writes back is its block of the result array. -/
theorem flushed4_eq (c : Dev nD) (hy : ∀ n : Fin NS, (label m c n).toNat < 5) (t : Fin cfg0.N) (hf : (cfg0.win 4).flush t = true) :
    (dats m 0 c).flushed 4 t = ((cfg0.win 4).blk t).view.read (Elt Ideal) (outArr m c) := by
  have h127 : t.val % 128 = 127 := (flush0_4 t).mp hf
  show (cfg0.win 4).cut (grid0.coords t) ((dats m 0 c).after 4 t) = _
  rw [after0_4]
  funext y
  rw [View.read_apply]
  have hy0 : (y 0).val = 0 := by
    have := Nat.lt_of_lt_of_le (y 0).isLt ((cfg0.win 4).xsize_le (grid0.coords t) 0)
    have e : (cfg0.win 4).size 0 = 1 := rfl
    omega
  have hy1 : (y 1).val < 32 := Nat.lt_of_lt_of_le (y 1).isLt ((cfg0.win 4).xsize_le (grid0.coords t) 1)
  have hy2 : (y 2).val < 16 := Nat.lt_of_lt_of_le (y 2).isLt ((cfg0.win 4).xsize_le (grid0.coords t) 2)
  show (outsAt0 m c t.val t.isLt).1 ((cfg0.win 4).xinj (grid0.coords t) y) = outArr m c (((cfg0.win 4).blk t).view.emb y)
  have e : ((cfg0.win 4).xinj (grid0.coords t) y : S1x32x16.Idx) = ix3 0 ⟨(y 1).val, hy1⟩ ⟨(y 2).val, hy2⟩ :=
    funext fun a => Fin.ext (by
      match a with
      | ⟨0, _⟩ => exact hy0
      | ⟨1, _⟩ => rfl
      | ⟨2, _⟩ => rfl)
  rw [e, out_entry m c hy t.val t.isLt h127]
  unfold outArr
  refine acc_congr m c _ _ _ _ _ _ ?_ (Fin.ext ?_) (Fin.ext ?_)
  · show t.val = 128 * (win0_4.index t 0 * 1 + 1 * (y 0).val) + 127
    rw [(idx_facts t).2.2.2.2.2.2.2.2.1, hy0]; omega
  · show (y 1).val = win0_4.index t 1 * 32 + 1 * (y 1).val
    rw [(idx_facts t).2.2.2.2.2.2.2.2.2.1]; omega
  · show (y 2).val = win0_4.index t 2 * 16 + 1 * (y 2).val
    rw [(idx_facts t).2.2.2.2.2.2.2.2.2.2]; omega

/-- The two last steps' blocks are the whole result array. -/
theorem final4 (c : Dev nD) (hy : ∀ n : Fin NS, (label m c n).toNat < 5) : (dats m 0 c).arrAt 4 cfg0.N = outArr m c :=
  (dats m 0 c).arrAt_eq_of_cover 4 (outArr m c) (fun t hf => flushed4_eq m c hy t hf) fun i => by
    have hN : cfg0.N = 256 := N_0
    have hi0 : (i 0).val < 2 := (i 0).isLt
    have hi1 : (i 1).val < 32 := (i 1).isLt
    have hi2 : (i 2).val < 16 := (i 2).isLt
    obtain ⟨tt, htt⟩ : ∃ tt : Fin cfg0.N, tt.val = 128 * (i 0).val + 127 := ⟨⟨128 * (i 0).val + 127, by omega⟩, rfl⟩
    refine ⟨tt, (flush0_4 tt).mpr (by rw [htt]; omega), ?_⟩
    show i ∈ ((View.whole main_v5).slice (win0_4.rect tt)).set
    rw [View.set_slice_whole, Rect.mem_set_unit]
    intro a
    have hf := idx_facts tt
    match a with
    | ⟨0, _⟩ =>
      show win0_4.index tt 0 * win0_4.size 0 ≤ (i 0 : Nat) ∧ (i 0 : Nat) < win0_4.index tt 0 * win0_4.size 0 + win0_4.xsize (grid0.coords tt) 0
      rw [hf.2.2.2.2.2.2.2.2.1, show win0_4.size 0 = 1 from rfl, show win0_4.xsize (grid0.coords tt) 0 = 1 from rfl, htt]; omega
    | ⟨1, _⟩ =>
      show win0_4.index tt 1 * win0_4.size 1 ≤ (i 1 : Nat) ∧ (i 1 : Nat) < win0_4.index tt 1 * win0_4.size 1 + win0_4.xsize (grid0.coords tt) 1
      rw [hf.2.2.2.2.2.2.2.2.2.1, show win0_4.xsize (grid0.coords tt) 1 = 32 from rfl]; omega
    | ⟨2, _⟩ =>
      show win0_4.index tt 2 * win0_4.size 2 ≤ (i 2 : Nat) ∧ (i 2 : Nat) < win0_4.index tt 2 * win0_4.size 2 + win0_4.xsize (grid0.coords tt) 2
      rw [hf.2.2.2.2.2.2.2.2.2.2, show win0_4.xsize (grid0.coords tt) 2 = 16 from rfl]; omega

end Cert.KernelIdeal.KVal

end
-- ==== Proof.KTail.lean ====
/-
  The host operations after the region, as one function of the kernel's 2 × 32 × 16 result array, read at a group.

  The two splits are summed (from zero), the 32 × 16 sums are viewed 2 × 16 × 16, the first 16 × 16 plane (numerators)
  and the second (denominators) are flattened to 256 entries each, and the quotient is taken entry by entry. Group
  `g` of the numerators is entry (g / 16, g mod 16) of the sums, group `g` of the denominators entry
  (16 + g / 16, g mod 16).
-/
import proofs.«414519_j4698694221868_3_alg».proof.Proof.Gen.KernelIdeal
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.KVal

open Cert.KernelIdeal Cert.KernelIdeal.Gen

variable {F : FTy → Type} [FloatOps F]

/-- The flattening [16,16] → [256] at position `g` reads row `g / 16`, column `g mod 16`. -/
theorem flat_apply {α : Type} (z : S16x16.Idx → α) (g : Fin 256) :
    shapeCast S256 z shapeCasts_S16x16_S256 (ix1 g)
      = z (ix2 (⟨g.val / 16, by have := g.isLt; omega⟩ : Fin 16) (⟨g.val % 16, by omega⟩ : Fin 16)) :=
  shapeCast_apply z shapeCasts_S16x16_S256 _ _ (by
    rewrite [Shape.rowMajor_val_two, Shape.rowMajor_val_one]
    show g.val / 16 * 16 + g.val % 16 = g.val
    omega)

/-- The view [32,16] → [2,16,16] at (p, r, l) reads row `16 p + r`, column `l`. -/
theorem view_apply {α : Type} (x : S32x16.Idx → α) (p : Fin 2) (r l : Fin 16) :
    shapeCast S2x16x16 x shapeCasts_S32x16_S2x16x16 (ix3 p r l)
      = x (ix2 (⟨16 * p.val + r.val, by have := p.isLt; have := r.isLt; omega⟩ : Fin 32) l) :=
  shapeCast_apply x shapeCasts_S32x16_S2x16x16 _ _ (by
    rewrite [Shape.rowMajor_val_two, Shape.rowMajor_val_three]
    show (16 * p.val + r.val) * 16 + l.val = (p.val * 16 + r.val) * 16 + l.val
    omega)

/-- Plane 0 of a [2,16,16] array at (u, r, l) is the array at (0, r, l). -/
theorem plane0_apply {α : Type} (y : S2x16x16.Idx → α) (u : Fin 1) (r l : Fin 16) :
    extractStridedSlice S1x16x16 ![0, 0, 0] y slices_S2x16x16_S1x16x16_0_0_0 (ix3 u r l) = y (ix3 (0 : Fin 2) r l) :=
  extractStridedSlice_apply _ y _ _ _ (fun a => by
    match a with
    | ⟨0, _⟩ => show (0 : Nat) = 0 + u.val; omega
    | ⟨1, _⟩ => exact (Nat.zero_add _).symm
    | ⟨2, _⟩ => exact (Nat.zero_add _).symm)

/-- Plane 1 of a [2,16,16] array at (u, r, l) is the array at (1, r, l). -/
theorem plane1_apply {α : Type} (y : S2x16x16.Idx → α) (u : Fin 1) (r l : Fin 16) :
    extractStridedSlice S1x16x16 ![1, 0, 0] y slices_S2x16x16_S1x16x16_1_0_0 (ix3 u r l) = y (ix3 (1 : Fin 2) r l) :=
  extractStridedSlice_apply _ y _ _ _ (fun a => by
    match a with
    | ⟨0, _⟩ => show (1 : Nat) = 1 + u.val; omega
    | ⟨1, _⟩ => exact (Nat.zero_add _).symm
    | ⟨2, _⟩ => exact (Nat.zero_add _).symm)

/-- Plane 0 of the view: (0, r, l) reads row `r` of the [32,16] array. -/
theorem view0_apply {α : Type} (x : S32x16.Idx → α) (r l : Fin 16) :
    shapeCast S2x16x16 x shapeCasts_S32x16_S2x16x16 (ix3 (0 : Fin 2) r l)
      = x (ix2 (⟨r.val, by have := r.isLt; omega⟩ : Fin 32) l) :=
  (view_apply x 0 r l).trans (congrArg (fun q : Fin 32 => x (ix2 q l))
    (Fin.ext (by show 16 * 0 + r.val = r.val; omega)))

/-- Plane 1 of the view: (1, r, l) reads row `16 + r` of the [32,16] array. -/
theorem view1_apply {α : Type} (x : S32x16.Idx → α) (r l : Fin 16) :
    shapeCast S2x16x16 x shapeCasts_S32x16_S2x16x16 (ix3 (1 : Fin 2) r l)
      = x (ix2 (⟨16 + r.val, by have := r.isLt; omega⟩ : Fin 32) l) :=
  (view_apply x 1 r l).trans (congrArg (fun q : Fin 32 => x (ix2 q l))
    (Fin.ext (by show 16 * 1 + r.val = 16 + r.val; omega)))

/-- The sum of the two splits from zero, at (r, l): the two splits' entries added. -/
theorem sums_apply (out : FVec Ideal S2x32x16 .f32) (r : Fin 32) (l : Fin 16) :
    Host.reduceAdd out (constant S_ .f32 0x00000000#32) reducesTo_S2x32x16_S32x16_d0 h_S_ (ix2 r l)
      = out (ix3 (0 : Fin 2) r l) + out (ix3 (1 : Fin 2) r l) := by
  simp only [Host.reduceAdd, Ideal.hostReduceAdd_def]
  rw [Ideal.hostReduceAdd_single reducesTo_S2x32x16_S32x16_d0 (by decide)]
  -- the initial value is the word 0 read as an extended real, which is 0
  rw [show constant (F := Ideal) S_ .f32 0x00000000#32 (Shape.Idx.first h_S_) = Ideal.ofBits .f32 0x00000000#32 from rfl,
    Ideal.ofBits_zero_f32, zero_add]
  -- the sum over the split axis has two terms, at split 0 and split 1
  show ∑ k : Fin 2, out _ = _
  rw [Fin.sum_univ_two]
  refine congrArg₂ (· + ·) ?_ ?_
  · exact congrArg out (funext fun a => Fin.ext (by match a with | ⟨0, _⟩ => rfl | ⟨1, _⟩ => rfl | ⟨2, _⟩ => rfl))
  · exact congrArg out (funext fun a => Fin.ext (by match a with | ⟨0, _⟩ => rfl | ⟨1, _⟩ => rfl | ⟨2, _⟩ => rfl))

/-- The ten host operations after the region, composed. -/
def tailFn (out : FVec F S2x32x16 .f32) : FVec F S256 .f32 :=
  Host.divf
    (shapeCast S256 (shapeCast S16x16 (extractStridedSlice S1x16x16 ![0, 0, 0]
      (shapeCast S2x16x16 (Host.reduceAdd out (constant S_ .f32 0x00000000#32) reducesTo_S2x32x16_S32x16_d0 h_S_) shapeCasts_S32x16_S2x16x16)
      slices_S2x16x16_S1x16x16_0_0_0) shapeCasts_S1x16x16_S16x16) shapeCasts_S16x16_S256)
    (shapeCast S256 (shapeCast S16x16 (extractStridedSlice S1x16x16 ![1, 0, 0]
      (shapeCast S2x16x16 (Host.reduceAdd out (constant S_ .f32 0x00000000#32) reducesTo_S2x32x16_S32x16_d0 h_S_) shapeCasts_S32x16_S2x16x16)
      slices_S2x16x16_S1x16x16_1_0_0) shapeCasts_S1x16x16_S16x16) shapeCasts_S16x16_S256)

/-- At group `g`: the quotient of the two splits' sums at (g / 16, g mod 16) and at (16 + g / 16, g mod 16). -/
theorem tailFn_apply (out : FVec Ideal S2x32x16 .f32) (g : Fin 256) :
    tailFn (F := Ideal) out (ix1 g)
      = Ideal.div
          (out (ix3 (0 : Fin 2) (⟨g.val / 16, by have := g.isLt; omega⟩ : Fin 32) (⟨g.val % 16, by omega⟩ : Fin 16))
            + out (ix3 (1 : Fin 2) (⟨g.val / 16, by have := g.isLt; omega⟩ : Fin 32) (⟨g.val % 16, by omega⟩ : Fin 16)))
          (out (ix3 (0 : Fin 2) (⟨16 + g.val / 16, by have := g.isLt; omega⟩ : Fin 32) (⟨g.val % 16, by omega⟩ : Fin 16))
            + out (ix3 (1 : Fin 2) (⟨16 + g.val / 16, by have := g.isLt; omega⟩ : Fin 32) (⟨g.val % 16, by omega⟩ : Fin 16))) := by
  unfold tailFn
  -- the quotient is taken entry by entry
  show Ideal.div _ _ = _
  -- numerators: flat position g → (g/16, g%16) → (0, g/16, g%16) → plane 0 → row g/16 of the sums
  -- denominators: the same through plane 1 → row 16 + g/16 of the sums
  rw [flat_apply, flat_apply, shapeCast_1ab_ab_apply, shapeCast_1ab_ab_apply, plane0_apply, plane1_apply,
    view0_apply, view1_apply, sums_apply, sums_apply]

end Cert.KernelIdeal.KVal

end
-- ==== Proof.KResult.lean ====
/-
  The kernel's result is the specification.

  The host operations after the region sum the two splits' accumulators and read group `g` at entry (g / 16, g mod 16)
  (numerators) and (16 + g / 16, g mod 16) (denominators). The two splits' accumulators add up to the sum over all 256
  grid steps of the steps' contributions, that is over all samples of value times the two nibble indicators of the
  group id against `g`: the segment sum of the weighted losses, respectively of the weights.
-/
import proofs.«414519_j4698694221868_3_alg».proof.Proof.KAccum
import proofs.«414519_j4698694221868_3_alg».proof.Proof.KTail

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.SegLoss

variable (m : (ℓ : Loc nD τ sig) → Buf (Elt Ideal) ℓ) (ρ : Dev nD → PrngReg)

/-- What the operations after the region leave in the result buffer: their composition at the region's result array. -/
theorem tail_eq (c : Dev nD) :
    (Pipeline.afterTail₀ cfgs (dats m) 0 (V0 m) [hostOps1] c main_v14 : FVec Ideal S256 .f32)
      = tailFn (F := Ideal) ((dats m 0 c).arrAt 4 cfg0.N : FVec Ideal S2x32x16 .f32) := by
  unfold Pipeline.afterTail₀
  show StableHlo.after hostOps1 _ (Proc.devRef .tc main_v14) = _
  after_results
  have key : Pipeline.withArrays (cfgs 0).spec c (V0 m c) (fun w => (dats m 0 c).arrAt w (cfgs 0).N) (Proc.devRef .tc main_v5)
      = (dats m 0 c).arrAt 4 cfg0.N :=
    Pipeline.withArrays_arr spec0 launch0.win.arr_inj c (V0 m c) (fun w => (dats m 0 c).arrAt w cfg0.N) 4
  rw [key]
  rfl

/-- The two runs' accumulators together: the sum over all grid steps. -/
theorem total (c : Dev nD) (hy : ∀ n : Fin NS, (label m c n).toNat < 5) (r : Fin 32) (l : Fin 16) :
    acc m c 127 r l + acc m c 255 r l = ∑ t : Fin 256, stepSum m c t r l := by
  have h := two_runs (P m c)
  rw [← acc_eq m c hy 127, ← acc_eq m c hy 255] at h
  have h2 := congrFun (congrFun h r) l
  simp only [Pi.add_apply, Finset.sum_apply] at h2
  rw [h2]
  refine Finset.sum_congr rfl fun t _ => ?_
  show (if h : t.val < 256 then stepSum m c ⟨t.val, h⟩ r l else 0) = _
  rw [dif_pos t.isLt]

/-- The numerators: rows 0–15 carry the weighted losses. -/
theorem numer_eq (c : Dev nD) (g : Fin 256) (h1 : g.val / 16 < 32) (h2 : g.val % 16 < 16) :
    ∑ t : Fin 256, stepSum m c t ⟨g.val / 16, h1⟩ ⟨g.val % 16, h2⟩
      = segSum (sampleLoss (logit m c) (label m c) (weight m c)) (group m c) g.val := by
  have hg := g.isLt
  have h16 : g.val / 16 < 16 := by omega
  rw [← nibble_sum _ _ g.val g.isLt]
  refine Finset.sum_congr rfl fun t _ => Finset.sum_congr rfl fun k _ => ?_
  unfold rowVal
  dsimp only
  rw [if_pos h16, Nat.mod_eq_of_lt h16]

/-- The denominators: rows 16–31 carry the weights. -/
theorem denom_eq (c : Dev nD) (g : Fin 256) (h1 : 16 + g.val / 16 < 32) (h2 : g.val % 16 < 16) :
    ∑ t : Fin 256, stepSum m c t ⟨16 + g.val / 16, h1⟩ ⟨g.val % 16, h2⟩
      = segSum (weight m c) (group m c) g.val := by
  have hg := g.isLt
  have h16 : g.val / 16 < 16 := by omega
  rw [← nibble_sum _ _ g.val g.isLt]
  refine Finset.sum_congr rfl fun t _ => Finset.sum_congr rfl fun k _ => ?_
  unfold rowVal
  dsimp only
  rw [if_neg (by omega), Nat.add_mod_left, Nat.mod_eq_of_lt h16]

/-- The operations after the region, at the result array, give the specification. -/
theorem result_eq (c : Dev nD) (hy : ∀ n : Fin NS, (label m c n).toNat < 5) :
    tailFn (F := Ideal) (outArr m c)
      = SegLoss.result (m ((c : Thread nD τ).loc main_arg0)) (m ((c : Thread nD τ).loc main_arg1)) (m ((c : Thread nD τ).loc main_arg2)) (m ((c : Thread nD τ).loc main_arg3)) := by
  funext i
  obtain ⟨g, rfl⟩ : ∃ g : Fin 256, i = ix1 g := ⟨i 0, eq_ix1 i⟩
  rw [tailFn_apply]
  have hg := g.isLt
  have eo : ∀ (s : Fin 2) (r : Fin 32) (l : Fin 16), outArr m c (ix3 s r l) = acc m c (128 * s.val + 127) r l := fun s r l => rfl
  rw [eo, eo, eo, eo]
  show Ideal.div (acc m c 127 _ _ + acc m c 255 _ _) (acc m c 127 _ _ + acc m c 255 _ _) = _
  rw [total m c hy, total m c hy, numer_eq m c g, denom_eq m c g]
  rfl

/-- The run, read: the result buffer at the specification's value of the arguments, the arguments unchanged. -/
theorem run (hy : ∀ (c : Dev nD) (n : Fin NS), (label m c n).toNat < 5) :
    θ_run defs (onTc (τ := τ) (main (F := Ideal))) ⟨m, fun _ => 0, ρ⟩ fun r => ∀ c : Dev nD,
      r.2.mem ((c.tc : Thread nD τ).loc main_v14)
        = SegLoss.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans
        ((tail_eq m c).trans (by rw [final4 m c (hy c)]; exact result_eq m c (hy c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KVal

end
-- ==== Proof.RefStages.lean ====
/-
  The reference program's run, read stage by stage: every weakly fair execution of its fifty host operations ends with
  the result buffer at the last stage's value of the four argument arrays, and the arguments unchanged.
-/
import proofs.«414519_j4698694221868_3_alg».proof.Proof.RefRead

noncomputable section

namespace Cert.ReferenceIdeal.RefRunH

open Cert.ReferenceIdeal Cert.ReferenceIdeal.Gen Idealize.ShloMosaic Idealize.ShloMosaic.TcCoe Idealize.SL.Sem Idealize.ShloMosaic.StableHlo

variable {F : FTy → Type} [FloatOps F]

/-- Moving contents to a typed reference's buffer and back is the identity. -/
theorem ofBuf_toBuf {T : BufTy} (x : TRef sig T) (v : T.Contents (Elt F)) : x.ofBuf (x.toBuf v) = v := by
  obtain ⟨r, rfl, h2, h3⟩ := x
  rfl

/-! ## The four stretches of the operation list -/

/-- The fifteen operations of the row-wise log-softmax: they end at `main_v0`. -/
abbrev s1 : List (HloOp τ sig (Elt F)) :=
  [ TRef.nullary (TRef.of (T := ⟨S_, .f32⟩) main_call0_cst) (constant S_ .f32 0xFF800000#32),
    TRef.binary (TRef.of (T := ⟨S8388608x5, .f32⟩) main_arg0) (TRef.of (T := ⟨S_, .f32⟩) main_call0_cst) (TRef.of (T := ⟨S8388608, .f32⟩) main_call0_v0) (fun x v => Host.reduce FloatOps.maximumf x v reducesTo_S8388608x5_S8388608_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8388608, .f32⟩) main_call0_v1) (broadcastInDim S8388608 ![] bcast_S_S8388608),
    TRef.binary (TRef.of (T := ⟨S8388608, .f32⟩) main_call0_v1) (TRef.of (T := ⟨S8388608, .f32⟩) main_call0_v0) (TRef.of (T := ⟨S8388608, .f32⟩) main_call0_v2) maximumf,
    TRef.unary (TRef.of (T := ⟨S8388608, .f32⟩) main_call0_v2) (TRef.of (T := ⟨S8388608x1, .f32⟩) main_call0_v3) (broadcastInDim S8388608x1 ![0] bcast_S8388608_S8388608x1_0),
    TRef.unary (TRef.of (T := ⟨S8388608x1, .f32⟩) main_call0_v3) (TRef.of (T := ⟨S8388608x5, .f32⟩) main_call0_v4) (broadcastInDim S8388608x5 ![0, 1] bcast_S8388608x1_S8388608x5_0_1),
    TRef.binary (TRef.of (T := ⟨S8388608x5, .f32⟩) main_arg0) (TRef.of (T := ⟨S8388608x5, .f32⟩) main_call0_v4) (TRef.of (T := ⟨S8388608x5, .f32⟩) main_call0_v5) subf,
    TRef.unary (TRef.of (T := ⟨S8388608x5, .f32⟩) main_call0_v5) (TRef.of (T := ⟨S8388608x5, .f32⟩) main_call0_v6) Host.exp,
    TRef.nullary (TRef.of (T := ⟨S_, .f32⟩) main_call0_cst_1) (constant S_ .f32 0x00000000#32),
    TRef.binary (TRef.of (T := ⟨S8388608x5, .f32⟩) main_call0_v6) (TRef.of (T := ⟨S_, .f32⟩) main_call0_cst_1) (TRef.of (T := ⟨S8388608, .f32⟩) main_call0_v7) (fun x v => Host.reduceAdd x v reducesTo_S8388608x5_S8388608_d1 h_S_),
    TRef.unary (TRef.of (T := ⟨S8388608, .f32⟩) main_call0_v7) (TRef.of (T := ⟨S8388608x1, .f32⟩) main_call0_v8) (broadcastInDim S8388608x1 ![0] bcast_S8388608_S8388608x1_0),
    TRef.unary (TRef.of (T := ⟨S8388608x1, .f32⟩) main_call0_v8) (TRef.of (T := ⟨S8388608x1, .f32⟩) main_call0_v9) Host.log,
    TRef.unary (TRef.of (T := ⟨S8388608x1, .f32⟩) main_call0_v9) (TRef.of (T := ⟨S8388608x5, .f32⟩) main_call0_v10) (broadcastInDim S8388608x5 ![0, 1] bcast_S8388608x1_S8388608x5_0_1),
    TRef.binary (TRef.of (T := ⟨S8388608x5, .f32⟩) main_call0_v5) (TRef.of (T := ⟨S8388608x5, .f32⟩) main_call0_v10) (TRef.of (T := ⟨S8388608x5, .f32⟩) main_v0) subf ]

/-- The index's column form and its wrap-around into range, reshaped to rank three: nine operations ending at `main_call1_v5`. -/
abbrev s2 : List (HloOp τ sig (Elt F)) :=
  [ unary main_arg1 main_v1 (broadcastInDim S8388608x1 ![0] bcast_S8388608_S8388608x1_0 : (⟨S8388608, .i32⟩ : BufTy).Contents (Elt F) → (⟨S8388608x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8388608x1, .i32⟩) main_call1_v0) (broadcastInDim S8388608x1 ![] bcast_S_S8388608x1),
    TRef.binary (TRef.of (T := ⟨S8388608x1, .i32⟩) main_v1) (TRef.of (T := ⟨S8388608x1, .i32⟩) main_call1_v0) (TRef.of (T := ⟨S8388608x1, .i1⟩) main_call1_v1) (cmpi .slt),
    TRef.nullary (TRef.of (T := ⟨S_, .i32⟩) main_call1_c_0) (constantI S_ 32 5#32),
    TRef.unary (TRef.of (T := ⟨S_, .i32⟩) main_call1_c_0) (TRef.of (T := ⟨S8388608x1, .i32⟩) main_call1_v2) (broadcastInDim S8388608x1 ![] bcast_S_S8388608x1),
    TRef.binary (TRef.of (T := ⟨S8388608x1, .i32⟩) main_v1) (TRef.of (T := ⟨S8388608x1, .i32⟩) main_call1_v2) (TRef.of (T := ⟨S8388608x1, .i32⟩) main_call1_v3) addi,
    TRef.ternary (TRef.of (T := ⟨S8388608x1, .i1⟩) main_call1_v1) (TRef.of (T := ⟨S8388608x1, .i32⟩) main_call1_v3) (TRef.of (T := ⟨S8388608x1, .i32⟩) main_v1) (TRef.of (T := ⟨S8388608x1, .i32⟩) main_call1_v4) select,
    TRef.reshape (TRef.of (T := ⟨S8388608x1, .i32⟩) main_call1_v4) (TRef.of (T := ⟨S8388608x1x1, .i32⟩) main_call1_v5) rfl shapeCasts_S8388608x1_S8388608x1x1 ]

/-- The range test of the index, the gather along the class axis and the select between them: fourteen operations ending at `main_v2`. -/
abbrev s3 : List (HloOp τ sig (Elt F)) :=
  [ TRef.nullary (TRef.of (T := ⟨S1, .i32⟩) main_call1_c_1) (constantI S1 32 4#32),
    TRef.nullary (TRef.of (T := ⟨S_, .i32⟩) main_call1_c_2) (constantI S_ 32 0#32),
    TRef.unary (TRef.of (T := ⟨S_, .i32⟩) main_call1_c_2) (TRef.of (T := ⟨S8388608x1x1, .i32⟩) main_call1_v6) (broadcastInDim S8388608x1x1 ![] bcast_S_S8388608x1x1),
    TRef.binary (TRef.of (T := ⟨S8388608x1x1, .i32⟩) main_call1_v5) (TRef.of (T := ⟨S8388608x1x1, .i32⟩) main_call1_v6) (TRef.of (T := ⟨S8388608x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8388608x1x1, .i32⟩) main_call1_v9) (broadcastInDim S8388608x1x1 ![0, 1, 2] bcast_S1x1x1_S8388608x1x1_0_1_2),
    TRef.binary (TRef.of (T := ⟨S8388608x1x1, .i32⟩) main_call1_v5) (TRef.of (T := ⟨S8388608x1x1, .i32⟩) main_call1_v9) (TRef.of (T := ⟨S8388608x1x1, .i1⟩) main_call1_v10) (cmpi .sle),
    TRef.binary (TRef.of (T := ⟨S8388608x1x1, .i1⟩) main_call1_v7) (TRef.of (T := ⟨S8388608x1x1, .i1⟩) main_call1_v10) (TRef.of (T := ⟨S8388608x1x1, .i1⟩) main_call1_v11) andi,
    TRef.nullary (TRef.of (T := ⟨S_, .i1⟩) main_call1_c_3) (constantI S_ 1 1#1),
    TRef.binary (TRef.of (T := ⟨S8388608x1x1, .i1⟩) main_call1_v11) (TRef.of (T := ⟨S_, .i1⟩) main_call1_c_3) (TRef.of (T := ⟨S8388608x1, .i1⟩) main_call1_v12) (fun x v => Host.reduce IntOp.andi x v reducesTo_S8388608x1x1_S8388608x1_d2 h_S_),
    TRef.binary (TRef.of (T := ⟨S8388608x5, .f32⟩) main_v0) (TRef.of (T := ⟨S8388608x1x1, .i32⟩) main_call1_v5) (TRef.of (T := ⟨S8388608x1, .f32⟩) main_call1_v13) (fun x i => Host.gather gather_S8388608x5_S8388608x1x1_S8388608x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8388608x1, .f32⟩) main_call1_v14) (broadcastInDim S8388608x1 ![] bcast_S_S8388608x1),
    TRef.ternary (TRef.of (T := ⟨S8388608x1, .i1⟩) main_call1_v12) (TRef.of (T := ⟨S8388608x1, .f32⟩) main_call1_v13) (TRef.of (T := ⟨S8388608x1, .f32⟩) main_call1_v14) (TRef.of (T := ⟨S8388608x1, .f32⟩) main_v2) select ]

/-- The negated, weighted picked values, their sum per segment, the weights' sum per segment and the quotient: twelve operations ending at `main_v12`. -/
abbrev s4 : List (HloOp τ sig (Elt F)) :=
  [ reshape main_v2 main_v3 rfl shapeCasts_S8388608x1_S8388608,
    unary main_v3 main_v4 (Host.negf : (⟨S8388608, .f32⟩ : BufTy).Contents (Elt F) → (⟨S8388608, .f32⟩ : BufTy).Contents (Elt F)),
    binary main_v4 main_arg3 main_v5 (mulf : (⟨S8388608, .f32⟩ : BufTy).Contents (Elt F) → (⟨S8388608, .f32⟩ : BufTy).Contents (Elt F) → (⟨S8388608, .f32⟩ : BufTy).Contents (Elt F)),
    nullary main_cst (constant S_ .f32 0x00000000#32),
    unary main_cst main_v6 (broadcastInDim S256 ![] bcast_S_S256 : (⟨S_, .f32⟩ : BufTy).Contents (Elt F) → (⟨S256, .f32⟩ : BufTy).Contents (Elt F)),
    unary main_arg2 main_v7 (broadcastInDim S8388608x1 ![0] bcast_S8388608_S8388608x1_0 : (⟨S8388608, .i32⟩ : BufTy).Contents (Elt F) → (⟨S8388608x1, .i32⟩ : BufTy).Contents (Elt F)),
    ternary main_v6 main_v7 main_v5 main_v8 ((fun x i u => Host.scatterAdd scatter_S256_S8388608x1_S8388608_n_0_0_1 x i u) : (⟨S256, .f32⟩ : BufTy).Contents (Elt F) → (⟨S8388608x1, .i32⟩ : BufTy).Contents (Elt F) → (⟨S8388608, .f32⟩ : BufTy).Contents (Elt F) → (⟨S256, .f32⟩ : BufTy).Contents (Elt F)),
    nullary main_cst_0 (constant S_ .f32 0x00000000#32),
    unary main_cst_0 main_v9 (broadcastInDim S256 ![] bcast_S_S256 : (⟨S_, .f32⟩ : BufTy).Contents (Elt F) → (⟨S256, .f32⟩ : BufTy).Contents (Elt F)),
    unary main_arg2 main_v10 (broadcastInDim S8388608x1 ![0] bcast_S8388608_S8388608x1_0 : (⟨S8388608, .i32⟩ : BufTy).Contents (Elt F) → (⟨S8388608x1, .i32⟩ : BufTy).Contents (Elt F)),
    ternary main_v9 main_v10 main_arg3 main_v11 ((fun x i u => Host.scatterAdd scatter_S256_S8388608x1_S8388608_n_0_0_1 x i u) : (⟨S256, .f32⟩ : BufTy).Contents (Elt F) → (⟨S8388608x1, .i32⟩ : BufTy).Contents (Elt F) → (⟨S8388608, .f32⟩ : BufTy).Contents (Elt F) → (⟨S256, .f32⟩ : BufTy).Contents (Elt F)),
    binary main_v8 main_v11 main_v12 (Host.divf : (⟨S256, .f32⟩ : BufTy).Contents (Elt F) → (⟨S256, .f32⟩ : BufTy).Contents (Elt F) → (⟨S256, .f32⟩ : BufTy).Contents (Elt F)) ]

set_option maxRecDepth 8192 in
/-- The operation list is the four stretches in a row. -/
theorem ops_eq : (PValue.ops : List (HloOp τ sig (Elt F))) = s1 ++ (s2 ++ (s3 ++ s4)) := rfl

/-! ## What a stretch computes from the buffers it reads -/

/-- The third stretch's value at `main_v2` from the log-probabilities `v0` and the rank-three index `v5`: where the
    index lies in `[0, 4]` the gathered entry, elsewhere the quiet NaN. -/
def stage3 (v0 : (⟨S8388608x5, .f32⟩ : BufTy).Contents (Elt F)) (v5 : (⟨S8388608x1x1, .i32⟩ : BufTy).Contents (Elt F)) :
    (⟨S8388608x1, .f32⟩ : BufTy).Contents (Elt F) :=
  select
    (Host.reduce IntOp.andi
      (andi (cmpi .sge v5 (PRead.val_main_call1_v6 (F := F))) (cmpi .sle v5 (PRead.val_main_call1_v9 (F := F))))
      (PRead.val_main_call1_c_3 (F := F)) reducesTo_S8388608x1x1_S8388608x1_d2 h_S_)
    (Host.gather gather_S8388608x5_S8388608x1x1_S8388608x1_n_1_0_0_1_2_11 v0 v5)
    (PRead.val_main_call1_v14 (F := F))

/-- The fourth stretch's value at `main_v12` from the picked column `v2`, the segment ids `x2` and the weights `x3`:
    the per-segment sum of the negated weighted picks over the per-segment sum of the weights. -/
def stage4 (v2 : (⟨S8388608x1, .f32⟩ : BufTy).Contents (Elt F)) (x2 : (⟨S8388608, .i32⟩ : BufTy).Contents (Elt F))
    (x3 : (⟨S8388608, .f32⟩ : BufTy).Contents (Elt F)) : (⟨S256, .f32⟩ : BufTy).Contents (Elt F) :=
  Host.divf
    (Host.scatterAdd scatter_S256_S8388608x1_S8388608_n_0_0_1 (PRead.val_main_v6 (F := F)) (PRead.val_main_v7 (F := F) x2)
      (mulf (Host.negf (shapeCast S8388608 v2 shapeCasts_S8388608x1_S8388608 : (⟨S8388608, .f32⟩ : BufTy).Contents (Elt F))) x3))
    (PRead.val_main_v11 (F := F) x2 x3)

set_option maxRecDepth 8192 in
/-- The stages composed are the last stage of the four arguments: both sides unfold to the same term. -/
theorem stages_eq (x0 : (⟨S8388608x5, .f32⟩ : BufTy).Contents (Elt F)) (x1 x2 : (⟨S8388608, .i32⟩ : BufTy).Contents (Elt F))
    (x3 : (⟨S8388608, .f32⟩ : BufTy).Contents (Elt F)) :
    stage4 (stage3 (PRead.val_main_v0 (F := F) x0) (PRead.val_main_call1_v5 (F := F) x1)) x2 x3
      = PRead.val_main_v12 (F := F) x0 x1 x2 x3 := rfl

/-! ## Each stretch, from an arbitrary valuation -/

set_option maxRecDepth 8192 in
/-- The first stretch leaves the log-softmax of `main_arg0` at `main_v0`. -/
theorem s1_v0 (V : Valuation τ sig (Elt F)) :
    after s1 V (Proc.devRef .tc main_v0) = PRead.val_main_v0 (F := F) (V (Proc.devRef .tc main_arg0)) := by
  after_results_simp
  simp only [ofBuf_toBuf]
  rfl

/-- The first stretch does not write `main_arg1`. -/
theorem s1_arg1 (V : Valuation τ sig (Elt F)) :
    after s1 V (Proc.devRef .tc main_arg1) = V (Proc.devRef .tc main_arg1) := by
  after_results_simp

/-- The first stretch does not write `main_arg2`. -/
theorem s1_arg2 (V : Valuation τ sig (Elt F)) :
    after s1 V (Proc.devRef .tc main_arg2) = V (Proc.devRef .tc main_arg2) := by
  after_results_simp

/-- The first stretch does not write `main_arg3`. -/
theorem s1_arg3 (V : Valuation τ sig (Elt F)) :
    after s1 V (Proc.devRef .tc main_arg3) = V (Proc.devRef .tc main_arg3) := by
  after_results_simp

set_option maxRecDepth 8192 in
/-- The second stretch leaves the wrapped index of `main_arg1`, in rank three, at `main_call1_v5`. -/
theorem s2_v5 (V : Valuation τ sig (Elt F)) :
    after s2 V (Proc.devRef .tc main_call1_v5) = PRead.val_main_call1_v5 (F := F) (V (Proc.devRef .tc main_arg1)) := by
  after_results_simp
  simp only [ofBuf_toBuf]
  rfl

/-- The second stretch does not write `main_v0`. -/
theorem s2_v0 (V : Valuation τ sig (Elt F)) :
    after s2 V (Proc.devRef .tc main_v0) = V (Proc.devRef .tc main_v0) := by
  after_results_simp

/-- The second stretch does not write `main_arg2`. -/
theorem s2_arg2 (V : Valuation τ sig (Elt F)) :
    after s2 V (Proc.devRef .tc main_arg2) = V (Proc.devRef .tc main_arg2) := by
  after_results_simp

/-- The second stretch does not write `main_arg3`. -/
theorem s2_arg3 (V : Valuation τ sig (Elt F)) :
    after s2 V (Proc.devRef .tc main_arg3) = V (Proc.devRef .tc main_arg3) := by
  after_results_simp

set_option maxRecDepth 8192 in
/-- The third stretch leaves `stage3` of `main_v0` and `main_call1_v5` at `main_v2`. -/
theorem s3_v2 (V : Valuation τ sig (Elt F)) :
    after s3 V (Proc.devRef .tc main_v2)
      = stage3 (F := F) (V (Proc.devRef .tc main_v0)) (V (Proc.devRef .tc main_call1_v5)) := by
  after_results_simp
  simp only [ofBuf_toBuf]
  -- the typed references' transports at these three literal references are the identity
  have h1 : ∀ y, (TRef.of (T := ⟨S8388608x1, .f32⟩) main_v2).toBuf (Val := Elt F) y = y := fun _ => rfl
  have h2 : ∀ y, (TRef.of (T := ⟨S8388608x1x1, .i32⟩) main_call1_v5).ofBuf (Val := Elt F) y = y := fun _ => rfl
  have h3 : ∀ y, (TRef.of (T := ⟨S8388608x5, .f32⟩) main_v0).ofBuf (Val := Elt F) y = y := fun _ => rfl
  rw [h1, h2, h3]
  rfl

/-- The third stretch does not write `main_arg2`. -/
theorem s3_arg2 (V : Valuation τ sig (Elt F)) :
    after s3 V (Proc.devRef .tc main_arg2) = V (Proc.devRef .tc main_arg2) := by
  after_results_simp

/-- The third stretch does not write `main_arg3`. -/
theorem s3_arg3 (V : Valuation τ sig (Elt F)) :
    after s3 V (Proc.devRef .tc main_arg3) = V (Proc.devRef .tc main_arg3) := by
  after_results_simp

set_option maxRecDepth 8192 in
/-- The fourth stretch leaves `stage4` of `main_v2`, `main_arg2` and `main_arg3` at `main_v12`. -/
theorem s4_v12 (V : Valuation τ sig (Elt F)) :
    after s4 V (Proc.devRef .tc main_v12)
      = stage4 (F := F) (V (Proc.devRef .tc main_v2)) (V (Proc.devRef .tc main_arg2)) (V (Proc.devRef .tc main_arg3)) := by
  after_results_simp
  rfl

/-! ## The whole list -/

/-- After all fifty operations `main_v12` holds the last stage of the four arguments' contents. -/
theorem ops_v12 (V : Valuation τ sig (Elt F)) :
    after (PValue.ops : List (HloOp τ sig (Elt F))) V (Proc.devRef .tc main_v12)
      = PRead.val_main_v12 (F := F) (V (Proc.devRef .tc main_arg0)) (V (Proc.devRef .tc main_arg1))
          (V (Proc.devRef .tc main_arg2)) (V (Proc.devRef .tc main_arg3)) := by
  rw [ops_eq, after_append, after_append, after_append, s4_v12, s3_v2, s3_arg2, s3_arg3, s2_v5, s2_v0, s2_arg2, s2_arg3,
    s1_v0, s1_arg1, s1_arg2, s1_arg3]
  exact stages_eq _ _ _ _

set_option maxRecDepth 8192 in
/-- No operation writes `main_arg0`. -/
theorem ops_arg0 (V : Valuation τ sig (Elt F)) :
    after (PValue.ops : List (HloOp τ sig (Elt F))) V (Proc.devRef .tc main_arg0) = V (Proc.devRef .tc main_arg0) := by
  after_results_simp
set_option maxRecDepth 8192 in
/-- No operation writes `main_arg1`. -/
theorem ops_arg1 (V : Valuation τ sig (Elt F)) :
    after (PValue.ops : List (HloOp τ sig (Elt F))) V (Proc.devRef .tc main_arg1) = V (Proc.devRef .tc main_arg1) := by
  after_results_simp
set_option maxRecDepth 8192 in
/-- No operation writes `main_arg2`. -/
theorem ops_arg2 (V : Valuation τ sig (Elt F)) :
    after (PValue.ops : List (HloOp τ sig (Elt F))) V (Proc.devRef .tc main_arg2) = V (Proc.devRef .tc main_arg2) := by
  after_results_simp
set_option maxRecDepth 8192 in
/-- No operation writes `main_arg3`. -/
theorem ops_arg3 (V : Valuation τ sig (Elt F)) :
    after (PValue.ops : List (HloOp τ sig (Elt F))) V (Proc.devRef .tc main_arg3) = V (Proc.devRef .tc main_arg3) := by
  after_results_simp

/-! ## The run -/

set_option maxRecDepth 8192 in
/-- On every device, for any float values, from any memory with zero counters: every weakly fair execution of the
    reference terminates with its result at the composed stages of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = PRead.val_main_v12 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono
    (fun _ h c => ⟨(h c main_v12).trans (ops_v12 _), (h c main_arg0).trans (ops_arg0 _), (h c main_arg1).trans (ops_arg1 _),
      (h c main_arg2).trans (ops_arg2 _), (h c main_arg3).trans (ops_arg3 _)⟩)
    (run_seq PValue.scopedRefs_eq PValue.scopedSems_eq defs main (fun _ => PValue.ops) PValue.main_eq (fun _ => PValue.ops_sub) m ρ)

end Cert.ReferenceIdeal.RefRunH

end
-- ==== Proof.RefSide.lean ====
/-
  The reference's last stage is the specification, for labels in range.

  With every label in `[0, 5)`: the index normalisation of the take leaves the label as it is, the range mask is all
  ones, and the gather reads the log-softmax row at the label; the log-softmax stages are the specification's row
  function; the two scatter-adds from zero are the segment sums (an update lands on group `g` exactly when its id, read
  signed, is `g`; one outside `[0, 256)` is dropped); the quotient is the same on both sides.
-/
import proofs.«414519_j4698694221868_3_alg».proof.Proof.RefRead
import proofs.«414519_j4698694221868_3_alg».proof.Proof.Spec
import Idealize.ShloMosaic.PureOps.Reduce
import Idealize.ShloMosaic.PureOps.Ideal
import Idealize.ShloMosaic.PureOps.Ideal.Laws
import Idealize.ShloMosaic.Lib.ValueIdx
import Idealize.ShloMosaic.Lib.StableHlo.Predicate

noncomputable section

namespace Cert.ReferenceIdeal.RefSide

open Cert.ReferenceIdeal Cert.ReferenceIdeal.Gen Idealize.ShloMosaic Idealize.ShloMosaic.TcCoe Idealize.ShloMosaic.ValueIdx

theorem red5 : S8388608x5.Reduces [1] S8388608 := by decide

theorem lift5 (n : Fin 8388608) (k : Fin 5) : red5.lift (ix1 n) k = ix2 n k := by
  funext c
  refine Fin.ext ?_
  match c with
  | ⟨0, _⟩ => rfl
  | ⟨1, _⟩ => rfl

/-- The row of sample `n`. -/
abbrev row (x0 : (⟨S8388608x5, .f32⟩ : BufTy).Contents (Elt Ideal)) (n : Fin 8388608) : Fin 5 → EReal := fun k => x0 (ix2 n k)

/-- The max-reduce over the class axis is the fold of `max` from the −∞ pattern over the row. -/
theorem rowfold (x0 : (⟨S8388608x5, .f32⟩ : BufTy).Contents (Elt Ideal)) (n : Fin 8388608) :
    PRead.val_main_call0_v0 (F := Ideal) x0 (ix1 n)
      = (Finset.univ : Finset (Fin 5)).fold max Cert.SegLoss.negInf (row x0 n) := by
  unfold PRead.val_main_call0_v0
  rw [Host.reduce_eq_fold_single (FloatOps.maximumf (F := Ideal) (φ := .f32)) x0 _ reducesTo_S8388608x5_S8388608_d1 red5 h_S_ (ix1 n)]
  have hf : (x0 ∘ red5.lift (ix1 n)) = row x0 n := funext fun k => congrArg x0 (lift5 n k)
  rw [hf]
  rfl

/-- The unit coordinate. -/
abbrev z1 : Fin 1 := ⟨0, Nat.one_pos⟩

theorem i3 (n : Fin 8388608) (z : Fin 1) : PRead.idx_main_call0_v3 (ix2 n z) = ix1 n := by
  funext a; match a with | ⟨0, _⟩ => rfl
theorem i4 (n : Fin 8388608) (c : Fin 5) : PRead.idx_main_call0_v4 (ix2 n c) = ix2 n z1 := by
  funext a; match a with | ⟨0, _⟩ => rfl | ⟨1, _⟩ => rfl
theorem i7 (n : Fin 8388608) (k : Fin 5) : PRead.idx_main_call0_v7 (ix1 n) k = ix2 n k := by
  funext a; match a with | ⟨0, _⟩ => rfl | ⟨1, _⟩ => rfl
theorem i8 (n : Fin 8388608) (z : Fin 1) : PRead.idx_main_call0_v8 (ix2 n z) = ix1 n := by
  funext a; match a with | ⟨0, _⟩ => rfl
theorem i10 (n : Fin 8388608) (c : Fin 5) : PRead.idx_main_call0_v10 (ix2 n c) = ix2 n z1 := by
  funext a; match a with | ⟨0, _⟩ => rfl | ⟨1, _⟩ => rfl

/-- The second maximum against −∞ gives the specification's row maximum. -/
theorem v2_at (x0 : (⟨S8388608x5, .f32⟩ : BufTy).Contents (Elt Ideal)) (n : Fin 8388608) :
    PRead.val_main_call0_v2 (F := Ideal) x0 (ix1 n) = Cert.SegLoss.rowMax (row x0 n) := by
  rw [PRead.val_main_call0_v2_apply, PRead.val_main_call0_v1_apply, PRead.val_main_call0_cst_0_apply, rowfold]
  rfl

theorem v4_at (x0 : (⟨S8388608x5, .f32⟩ : BufTy).Contents (Elt Ideal)) (n : Fin 8388608) (c : Fin 5) :
    PRead.val_main_call0_v4 (F := Ideal) x0 (ix2 n c) = Cert.SegLoss.rowMax (row x0 n) := by
  rw [PRead.val_main_call0_v4_apply, i4, PRead.val_main_call0_v3_apply, i3]
  exact v2_at x0 n

theorem v5_at (x0 : (⟨S8388608x5, .f32⟩ : BufTy).Contents (Elt Ideal)) (n : Fin 8388608) (c : Fin 5) :
    PRead.val_main_call0_v5 (F := Ideal) x0 (ix2 n c) = row x0 n c - Cert.SegLoss.rowMax (row x0 n) := by
  rw [PRead.val_main_call0_v5_apply, v4_at]
  rfl

theorem v6_at (x0 : (⟨S8388608x5, .f32⟩ : BufTy).Contents (Elt Ideal)) (n : Fin 8388608) (c : Fin 5) :
    PRead.val_main_call0_v6 (F := Ideal) x0 (ix2 n c) = Ideal.exp (row x0 n c - Cert.SegLoss.rowMax (row x0 n)) := by
  rw [PRead.val_main_call0_v6_apply, v5_at]
  rfl

/-- The sum of the shifted row's exponentials, from the zero pattern. -/
theorem v7_at (x0 : (⟨S8388608x5, .f32⟩ : BufTy).Contents (Elt Ideal)) (n : Fin 8388608) :
    PRead.val_main_call0_v7 (F := Ideal) x0 (ix1 n)
      = ∑ k : Fin 5, Ideal.exp (row x0 n k - Cert.SegLoss.rowMax (row x0 n)) := by
  rw [PRead.val_main_call0_v7_apply, PRead.val_main_call0_cst_1_apply, Ideal.ofBits_def, Ideal.ofBits_zero_f32, zero_add]
  refine Finset.sum_congr rfl fun k _ => ?_
  rw [i7, v6_at]

theorem v9_at (x0 : (⟨S8388608x5, .f32⟩ : BufTy).Contents (Elt Ideal)) (n : Fin 8388608) (z : Fin 1) :
    PRead.val_main_call0_v9 (F := Ideal) x0 (ix2 n z)
      = Ideal.log (∑ k : Fin 5, Ideal.exp (row x0 n k - Cert.SegLoss.rowMax (row x0 n))) := by
  rw [PRead.val_main_call0_v9_apply, PRead.val_main_call0_v8_apply, i8, v7_at]
  rfl

/-- The log-softmax stage is the specification's row function. -/
theorem v0_at (x0 : (⟨S8388608x5, .f32⟩ : BufTy).Contents (Elt Ideal)) (n : Fin 8388608) (c : Fin 5) :
    PRead.val_main_v0 (F := Ideal) x0 (ix2 n c) = Cert.SegLoss.logSoftmax (row x0 n) c := by
  rw [PRead.val_main_v0_apply, v5_at, PRead.val_main_call0_v10_apply, i10, v9_at]
  rfl

/-! ## The take along the class axis, for a label in range -/

open Idealize.ShloMosaic.StableHlo.Predicate in
/-- A label word below five: it is not negative, at least zero and at most four as signed words, and reads the same signed. -/
theorem label_facts (y : BitVec 32) (hy : y.toNat < 5) :
    IntOp.cmpi .slt y 0#32 = 0#1 ∧ IntOp.cmpi .sge y 0#32 = 1#1 ∧ IntOp.cmpi .sle y 4#32 = 1#1 ∧ y.toInt.toNat = y.toNat := by
  have h31 : y.toNat < 2 ^ 31 := by omega
  have h0 : (0#32).toNat < 2 ^ 31 := by decide
  have h4 : (4#32).toNat < 2 ^ 31 := by decide
  refine ⟨eq_zero_of_ne_one fun h => ?_, (sge_iff_toNat h31 h0).2 (Nat.zero_le _), (sle_iff_toNat h31 h4).2 ?_, ?_⟩
  · have := (slt_iff_toNat h31 h0).1 h
    exact absurd this (Nat.not_lt_zero _)
  · show y.toNat ≤ 4
    omega
  · rw [toInt_eq_toNat_of_lt h31]; rfl

theorem j1 (n : Fin 8388608) (z : Fin 1) : PRead.idx_main_v1 (ix2 n z) = ix1 n := by
  funext a; match a with | ⟨0, _⟩ => rfl
theorem j5 (n : Fin 8388608) (z z' : Fin 1) : PRead.idx_main_call1_v5 (ix3 n z z') = ix2 n z1 := by
  funext a
  match a with
  | ⟨0, _⟩ =>
    refine Fin.ext ?_
    show ((n.val * 1 + z.val) * 1 + z'.val) / 1 = n.val
    have := z.isLt; have := z'.isLt; omega
  | ⟨1, _⟩ => rfl
theorem j3 (n : Fin 8388608) : PRead.idx_main_v3 (ix1 n) = ix2 n z1 := by
  funext a
  match a with
  | ⟨0, _⟩ => exact Fin.ext (Nat.div_one _)
  | ⟨1, _⟩ => rfl

/-- The normalised index of sample `n`: a label in range is kept as it is. -/
theorem c4_at (x1 : (⟨S8388608, .i32⟩ : BufTy).Contents (Elt Ideal)) (n : Fin 8388608) (z : Fin 1) (hy : (x1 (ix1 n)).toNat < 5) :
    PRead.val_main_call1_v4 (F := Ideal) x1 (ix2 n z) = x1 (ix1 n) := by
  rw [PRead.val_main_call1_v4_apply, PRead.val_main_call1_v1_apply, PRead.val_main_v1_apply, j1,
    PRead.val_main_call1_v0_apply, PRead.val_main_call1_c_apply, (label_facts _ hy).1, select_zero]

theorem c5_at (x1 : (⟨S8388608, .i32⟩ : BufTy).Contents (Elt Ideal)) (n : Fin 8388608) (z z' : Fin 1) (hy : (x1 (ix1 n)).toNat < 5) :
    PRead.val_main_call1_v5 (F := Ideal) x1 (ix3 n z z') = x1 (ix1 n) := by
  rw [PRead.val_main_call1_v5_apply, j5, c4_at x1 n z1 hy]

/-- The range mask at sample `n` is set. -/
theorem c11_at (x1 : (⟨S8388608, .i32⟩ : BufTy).Contents (Elt Ideal)) (n : Fin 8388608) (z z' : Fin 1) (hy : (x1 (ix1 n)).toNat < 5) :
    PRead.val_main_call1_v11 (F := Ideal) x1 (ix3 n z z') = 1#1 := by
  rw [PRead.val_main_call1_v11_apply, PRead.val_main_call1_v7_apply, PRead.val_main_call1_v10_apply, c5_at x1 n z z' hy,
    PRead.val_main_call1_v6_apply, PRead.val_main_call1_c_2_apply, PRead.val_main_call1_v9_apply, PRead.val_main_call1_v8_apply,
    PRead.val_main_call1_c_1_apply, (label_facts _ hy).2.1, (label_facts _ hy).2.2.1]
  rfl

theorem red3 : S8388608x1x1.Reduces [2] S8388608x1 := by decide

theorem lift3 (n : Fin 8388608) (z k : Fin 1) : red3.lift (ix2 n z) k = ix3 n z k := by
  funext c
  refine Fin.ext ?_
  match c with
  | ⟨0, _⟩ => rfl
  | ⟨1, _⟩ => rfl
  | ⟨2, _⟩ => rfl

/-- The and-reduce of the mask over the unit axis is set. -/
theorem c12_at (x1 : (⟨S8388608, .i32⟩ : BufTy).Contents (Elt Ideal)) (n : Fin 8388608) (z : Fin 1) (hy : (x1 (ix1 n)).toNat < 5) :
    PRead.val_main_call1_v12 (F := Ideal) x1 (ix2 n z) = 1#1 := by
  unfold PRead.val_main_call1_v12
  rw [Host.reduce_eq_fold_single IntOp.andi _ _ reducesTo_S8388608x1x1_S8388608x1_d2 red3 h_S_ (ix2 n z)]
  have hf : (PRead.val_main_call1_v11 (F := Ideal) x1 ∘ red3.lift (ix2 n z)) = fun _ => 1#1 := funext fun k =>
    (congrArg (PRead.val_main_call1_v11 (F := Ideal) x1) (lift3 n z k)).trans (c11_at x1 n z k hy)
  rw [hf]
  rfl

/-- The gather's record. -/
abbrev gd := gather_S8388608x5_S8388608x1x1_S8388608x1_n_1_0_0_1_2_11

/-- The gather at `(n, z)` reads the operand's row `n` at the start index's word, read signed, when that is a class. -/
theorem gather_at {α : Type} (x : S8388608x5.Idx → α) (idx : IVec S8388608x1x1 32) (n : Fin 8388608) (z : Fin 1)
    (t : Fin 5) (ht : (idx (ix3 n z z1)).toInt.toNat = t.val) :
    Host.gather gd x idx (ix2 n z) = x (ix2 n t) := by
  unfold Host.gather
  congr 1
  funext a
  refine Fin.ext ?_
  match a with
  | ⟨0, _⟩ =>
    show gd.start (ix2 n z) idx 0 + gd.batchCoord (ix2 n z) 0 + gd.offCoord (ix2 n z) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gd.operandBatchingDims from List.mem_singleton.mpr rfl)]
    rfl
  | ⟨1, _⟩ =>
    show gd.start (ix2 n z) idx 1 + gd.batchCoord (ix2 n z) 1 + gd.offCoord (ix2 n z) 1 = t.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 n z) ⟨List.idxOf (1 : Fin 2) gd.startIndexMap,
        List.idxOf_lt_length_iff.2 (List.mem_singleton.mpr rfl)⟩ = ix3 n z z1 := by
      funext b; refine Fin.ext ?_
      match b with
      | ⟨0, _⟩ => rfl
      | ⟨1, _⟩ => rfl
      | ⟨2, _⟩ => rfl
    rw [hsi, ht]
    show min t.val (5 - 1) = t.val
    have := t.isLt; omega

/-- The gathered value at sample `n`: the log-softmax of its row at its label's class. -/
theorem c13_at (x0 : (⟨S8388608x5, .f32⟩ : BufTy).Contents (Elt Ideal)) (x1 : (⟨S8388608, .i32⟩ : BufTy).Contents (Elt Ideal))
    (n : Fin 8388608) (z : Fin 1) (hy : (x1 (ix1 n)).toNat < 5) :
    PRead.val_main_call1_v13 (F := Ideal) x0 x1 (ix2 n z) = Cert.SegLoss.logSoftmax (row x0 n) (Cert.SegLoss.cls (x1 (ix1 n))) := by
  unfold PRead.val_main_call1_v13
  have ht : (PRead.val_main_call1_v5 (F := Ideal) x1 (ix3 n z z1)).toInt.toNat = (Cert.SegLoss.cls (x1 (ix1 n))).val := by
    rw [c5_at x1 n z z1 hy, (label_facts _ hy).2.2.2]
    exact (Nat.mod_eq_of_lt hy).symm
  rw [gather_at _ _ n z (Cert.SegLoss.cls (x1 (ix1 n))) ht]
  exact v0_at x0 n _

/-- The take's result at sample `n`. -/
theorem m3_at (x0 : (⟨S8388608x5, .f32⟩ : BufTy).Contents (Elt Ideal)) (x1 : (⟨S8388608, .i32⟩ : BufTy).Contents (Elt Ideal))
    (n : Fin 8388608) (hy : (x1 (ix1 n)).toNat < 5) :
    PRead.val_main_v3 (F := Ideal) x0 x1 (ix1 n) = Cert.SegLoss.logSoftmax (row x0 n) (Cert.SegLoss.cls (x1 (ix1 n))) := by
  rw [PRead.val_main_v3_apply, j3, PRead.val_main_v2_apply, c12_at x1 n z1 hy, select_one, c13_at x0 x1 n z1 hy]

/-- The weighted loss stage is the specification's sample loss. -/
theorem m5_at (x0 : (⟨S8388608x5, .f32⟩ : BufTy).Contents (Elt Ideal)) (x1 : (⟨S8388608, .i32⟩ : BufTy).Contents (Elt Ideal))
    (x3 : (⟨S8388608, .f32⟩ : BufTy).Contents (Elt Ideal)) (n : Fin 8388608) (hy : (x1 (ix1 n)).toNat < 5) :
    PRead.val_main_v5 (F := Ideal) x0 x1 x3 (ix1 n)
      = Cert.SegLoss.sampleLoss (fun n c => x0 (ix2 n c)) (fun n => x1 (ix1 n)) (fun n => x3 (ix1 n)) n := by
  rw [PRead.val_main_v5_apply, PRead.val_main_v4_apply, m3_at x0 x1 n hy]
  rfl

/-- The scatter's record. -/
abbrev sd := scatter_S256_S8388608x1_S8388608_n_0_0_1

/-- Update `n` lands on group `i` exactly when its id word, read signed, is `i`'s coordinate: the start is the id
    word unclamped, the window coordinate is zero, and a start outside `[0, 256)` is dropped. -/
theorem res_iff (idx : IVec S8388608x1 32) (n : Fin 8388608) (i : S256.Idx) :
    sd.resultIdx? (ix1 n) idx = some i ↔ (idx (ix2 n z1)).toInt = ((i 0).val : ℤ) := by
  have hs : ∀ a, sd.start (ix1 n) idx a = (idx (ix2 n z1)).toInt := fun a => by
    obtain rfl : a = 0 := Subsingleton.elim _ _
    unfold ScatterDims.start
    rw [dif_pos (show (0 : Fin 1) ∈ sd.scatterDimsToOperandDims from List.mem_singleton.mpr rfl)]
    have hsi : sd.siIdx (ix1 n) ⟨List.idxOf (0 : Fin 1) sd.scatterDimsToOperandDims,
        List.idxOf_lt_length_iff.2 (List.mem_singleton.mpr rfl)⟩ = ix2 n z1 := by
      funext b; refine Fin.ext ?_
      match b with
      | ⟨0, _⟩ => rfl
      | ⟨1, _⟩ => rfl
    rw [hsi]
  have hw : ∀ a, sd.window (ix1 n) a = 0 := fun a => by
    obtain rfl : a = 0 := Subsingleton.elim _ _
    unfold ScatterDims.window
    rw [dif_neg (by decide)]
  unfold ScatterDims.resultIdx?
  split
  · next h =>
    have h0 := h 0
    rw [hs, hw] at h0
    constructor
    · intro e
      have e0 := congrArg (fun f : S256.Idx => (f 0).val) (Option.some.inj e)
      simp only [hs, hw] at e0
      omega
    · intro e
      refine congrArg some (funext fun a => ?_)
      obtain rfl : a = 0 := Subsingleton.elim _ _
      refine Fin.ext ?_
      simp only [hs, hw]
      omega
  · next h =>
    constructor
    · intro e; exact absurd e (by simp)
    · intro e
      refine absurd (fun a => ?_) h
      obtain rfl : a = 0 := Subsingleton.elim _ _
      rw [hs, hw, e]
      have := (i 0).isLt
      constructor
      · omega
      · show ((i 0).val : ℤ) + ((0 : ℕ) : ℤ) < ((256 : ℕ) : ℤ)
        have : (i 0).val < 256 := (i 0).isLt
        omega

/-- A scatter-add into zeros is the segment sum of the updates by their id words. -/
theorem scatter_at (x : S256.Idx → EReal) (idx : IVec S8388608x1 32) (upd : S8388608.Idx → EReal) (i : S256.Idx) (hx : x i = 0) :
    Ideal.hostScatterAdd sd x idx upd i
      = Cert.SegLoss.segSum (fun n => upd (ix1 n)) (fun n => idx (ix2 n z1)) (i 0).val := by
  unfold Ideal.hostScatterAdd Cert.SegLoss.segSum
  rw [hx, zero_add]
  refine Finset.sum_nbij' (fun j => j 0) (fun n => ix1 n) ?_ ?_ ?_ ?_ ?_
  · intro j hj
    have h2 := (Finset.mem_filter.1 hj).2
    rw [eq_ix1 j] at h2
    exact Finset.mem_filter.2 ⟨Finset.mem_univ _, (res_iff idx _ i).1 h2⟩
  · intro n hn
    exact Finset.mem_filter.2 ⟨Finset.mem_univ _, (res_iff idx n i).2 (Finset.mem_filter.1 hn).2⟩
  · intro j _; exact (eq_ix1 j).symm
  · intro n _; rfl
  · intro j _; exact congrArg upd (eq_ix1 j)

theorem k6 (i : S256.Idx) : PRead.val_main_v6 (F := Ideal) i = 0 := by
  rw [PRead.val_main_v6_apply, PRead.val_main_cst_apply, Ideal.ofBits_def, Ideal.ofBits_zero_f32]
theorem k9 (i : S256.Idx) : PRead.val_main_v9 (F := Ideal) i = 0 := by
  rw [PRead.val_main_v9_apply, PRead.val_main_cst_0_apply, Ideal.ofBits_def, Ideal.ofBits_zero_f32]
theorem k7 (x2 : (⟨S8388608, .i32⟩ : BufTy).Contents (Elt Ideal)) (n : Fin 8388608) :
    PRead.val_main_v7 (F := Ideal) x2 (ix2 n z1) = x2 (ix1 n) := by
  rw [PRead.val_main_v7_apply]
  exact congrArg x2 (funext fun a => by match a with | ⟨0, _⟩ => rfl)
theorem k10 (x2 : (⟨S8388608, .i32⟩ : BufTy).Contents (Elt Ideal)) (n : Fin 8388608) :
    PRead.val_main_v10 (F := Ideal) x2 (ix2 n z1) = x2 (ix1 n) := by
  rw [PRead.val_main_v10_apply]
  exact congrArg x2 (funext fun a => by match a with | ⟨0, _⟩ => rfl)

/-- At the ideal instance the host's scatter-add is the exact one. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

/-- The first scatter-add: the segment sum of the sample losses. -/
theorem m8_at (x0 : (⟨S8388608x5, .f32⟩ : BufTy).Contents (Elt Ideal)) (x1 x2 : (⟨S8388608, .i32⟩ : BufTy).Contents (Elt Ideal))
    (x3 : (⟨S8388608, .f32⟩ : BufTy).Contents (Elt Ideal)) (hy : ∀ n : Fin 8388608, (x1 (ix1 n)).toNat < 5) (i : S256.Idx) :
    PRead.val_main_v8 (F := Ideal) x0 x1 x2 x3 i
      = Cert.SegLoss.segSum (Cert.SegLoss.sampleLoss (fun n c => x0 (ix2 n c)) (fun n => x1 (ix1 n)) (fun n => x3 (ix1 n)))
          (fun n => x2 (ix1 n)) (i 0).val := by
  unfold PRead.val_main_v8
  rw [scatterAdd_ideal, scatter_at _ _ _ i (k6 i)]
  have h1 : (fun n : Fin 8388608 => PRead.val_main_v5 (F := Ideal) x0 x1 x3 (ix1 n))
      = Cert.SegLoss.sampleLoss (fun n c => x0 (ix2 n c)) (fun n => x1 (ix1 n)) (fun n => x3 (ix1 n)) :=
    funext fun n => m5_at x0 x1 x3 n (hy n)
  have h2 : (fun n : Fin 8388608 => PRead.val_main_v7 (F := Ideal) x2 (ix2 n z1)) = fun n => x2 (ix1 n) :=
    funext fun n => k7 x2 n
  rw [h1, h2]

/-- The second scatter-add: the segment sum of the weights. -/
theorem m11_at (x2 : (⟨S8388608, .i32⟩ : BufTy).Contents (Elt Ideal)) (x3 : (⟨S8388608, .f32⟩ : BufTy).Contents (Elt Ideal)) (i : S256.Idx) :
    PRead.val_main_v11 (F := Ideal) x2 x3 i = Cert.SegLoss.segSum (fun n => x3 (ix1 n)) (fun n => x2 (ix1 n)) (i 0).val := by
  unfold PRead.val_main_v11
  rw [scatterAdd_ideal, scatter_at _ _ _ i (k9 i)]
  have h2 : (fun n : Fin 8388608 => PRead.val_main_v10 (F := Ideal) x2 (ix2 n z1)) = fun n => x2 (ix1 n) :=
    funext fun n => k10 x2 n
  rw [h2]

/-- For labels in range the reference's result is the specification's, group by group. -/
theorem ref_result (x0 : (⟨S8388608x5, .f32⟩ : BufTy).Contents (Elt Ideal)) (x1 x2 : (⟨S8388608, .i32⟩ : BufTy).Contents (Elt Ideal))
    (x3 : (⟨S8388608, .f32⟩ : BufTy).Contents (Elt Ideal)) (hy : ∀ n : Fin 8388608, (x1 (ix1 n)).toNat < 5) :
    PRead.val_main_v12 (F := Ideal) x0 x1 x2 x3 = Cert.SegLoss.result x0 x1 x2 x3 := by
  funext i
  rw [PRead.val_main_v12_apply, m8_at x0 x1 x2 x3 hy i, m11_at x2 x3 i]
  rfl

end Cert.ReferenceIdeal.RefSide

end
-- ==== Proof.PreRead.lean ====
/-
  What the precondition says of the labels: every label word, read signed, is at least 0 and below 5, so as a
  natural number it is below 5.
-/
import proofs.«414519_j4698694221868_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx Cert.Pre_finite_inputs

/-- A rank-0 shape has exactly one index. -/
instance subsingleton_S_Idx : Subsingleton S_.Idx := ⟨fun _ _ => funext fun d => d.elim0⟩

/-- A 32-bit word whose signed reading lies in `[0, 5)` is below 5 as a natural number: a signed reading that is
    nonnegative is the unsigned one. -/
theorem toNat_lt_five_of_toInt {a : BitVec 32} (h0 : (0 : Int) ≤ a.toInt) (h5 : a.toInt < 5) : a.toNat < 5 := by
  rw [BitVec.toInt_eq_toNat_cond] at h0 h5
  have := a.isLt
  split at h0 <;> omega

/-- Under the precondition every label is in `[0, 5)`. -/
theorem labels_of_pre [Cert.Pre_finite_inputs.Facts] (x0 : FVec Ideal S8388608x5 .f32) (x1 x2 : IVec S8388608 32) (x3 : FVec Ideal S8388608 .f32)
    (h : Cert.Pre_finite_inputs.fn (F := Ideal) x0 x1 x2 x3 = fun _ => 1#1) (n : Fin 8388608) : (x1 (ix1 n)).toNat < 5 := by
  -- The predicate's value at its one index is a conjunction of four all-reductions.
  have h0 := congrFun h ix0
  dsimp only [fn, fn_part1] at h0
  change IntOp.andi (IntOp.andi (IntOp.andi _ _) _) _ = 1#1 at h0
  obtain ⟨h12, h15⟩ := IntOp.andi_eq_one.1 h0
  obtain ⟨_, h11⟩ := IntOp.andi_eq_one.1 h12
  -- Each all-reduction that is 1 had a 1 at every position; read the two label masks at `n`.
  have hge := Host.reduce_andi_all _ _ _ _ _ h11 (ix1 n)
  have hlt := Host.reduce_andi_all _ _ _ _ _ h15 (ix1 n)
  -- The broadcast of a rank-0 constant reads the constant, so the masks compare the label with 0 and with 5.
  change IntOp.cmpi .sge (x1 (ix1 n)) 0#32 = 1#1 at hge
  change IntOp.cmpi .slt (x1 (ix1 n)) 5#32 = 1#1 at hlt
  rw [IntOp.cmpi_sge] at hge
  rw [IntOp.cmpi_slt] at hlt
  have z : (0#32 : BitVec 32).toInt = 0 := by decide
  have f : (5#32 : BitVec 32).toInt = 5 := by decide
  rw [z] at hge
  rw [f] at hlt
  exact toNat_lt_five_of_toInt hge hlt

end Cert.PreRead

end
-- ==== Proof.lean ====
/-
  A per-group weighted loss: for each of 256 groups, the sum over the group's samples of weight times negative
  log-softmax at the label, divided by the sum of the group's weights.

  The kernel walks the samples in 256 blocks of 32768 (two runs of 128 grid steps). In each step it forms the weighted
  losses of the block, splits every group id into a high and a low nibble, and adds to a 32 × 16 accumulator the
  product of "value times one-hot of the high nibble" (rows 0–15 the losses, rows 16–31 the weights) with the one-hot
  of the low nibble; the host then adds the two runs' accumulators, reads group `g` at (g / 16, g mod 16), and divides.
  The reference takes the log-softmax of every row, gathers it at the label, scatters the weighted losses and the
  weights onto the groups by addition, and divides.

  Over the extended reals both are the same quotient of segment sums: the two nibbles of an id match `g`'s exactly
  when the id, read signed, is `g` (an id outside [0, 256) lands nowhere on either side); the one-hot sum over the five
  classes is the gather at the label when the label is in [0, 5), which the precondition states; every other step is
  a re-ordering of a finite sum. No law that needs finiteness is used.

  The three frames are the generated ones (the reference's: its run, read stage by stage, with the result dropped).
-/
import proofs.«414519_j4698694221868_3_alg».proof.Defs
import proofs.«414519_j4698694221868_3_alg».proof.Proof.Gen.Kernel
import proofs.«414519_j4698694221868_3_alg».proof.Proof.Gen.Kernel.Frame
import proofs.«414519_j4698694221868_3_alg».proof.Proof.Gen.KernelIdeal
import proofs.«414519_j4698694221868_3_alg».proof.Proof.Gen.KernelIdeal.Frame
import proofs.«414519_j4698694221868_3_alg».proof.Proof.Gen.ReferenceIdeal
import proofs.«414519_j4698694221868_3_alg».proof.Proof.Gen.Pre_finite_inputs
import proofs.«414519_j4698694221868_3_alg».proof.Proof.KResult
import proofs.«414519_j4698694221868_3_alg».proof.Proof.RefStages
import proofs.«414519_j4698694221868_3_alg».proof.Proof.RefSide
import proofs.«414519_j4698694221868_3_alg».proof.Proof.PreRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRunH.run (F := Ideal) m ρ)

/-- The two idealized programs end with the same result: the kernel's at the specification (its value leg), the
    reference's at its last stage, which for labels in range is the specification. -/
theorem algebraic : Cert.algebraic_KernelIdeal_ReferenceIdeal := by
  intro m ρ m' ρ' hpre hagree
  have hy : ∀ (c : Dev Cert.KernelIdeal.nD) (n : Fin 8388608),
      (m ((c.tc : Thread Cert.KernelIdeal.nD Cert.KernelIdeal.τ).loc Cert.KernelIdeal.main_arg1) (ix1 n)).toNat < 5 :=
    fun c n => Cert.PreRead.labels_of_pre _ _ _ _ (hpre c) n
  refine ⟨_, Cert.KernelIdeal.KVal.run m ρ hy, ?_⟩
  refine (θ_run Cert.ReferenceIdeal.defs _ _).mono (fun _ h c => ⟨(h c).1.trans ?_, (h c).2⟩)
    (Cert.ReferenceIdeal.RefRunH.run (F := Ideal) m' ρ')
  rw [(hagree c).1, (hagree c).2.1, (hagree c).2.2.1, (hagree c).2.2.2]
  exact Cert.ReferenceIdeal.RefSide.ref_result _ _ _ _ (hy c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
